-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_c_14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_c_14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_c_18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x10000x32 : Shape := ⟨3, ![16, 10000, 32]⟩
abbrev S2x160000 : Shape := ⟨2, ![2, 160000]⟩
abbrev S160000 : Shape := ⟨1, ![160000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S_ : Shape := ⟨0, ![]⟩
abbrev S1x160000 : Shape := ⟨2, ![1, 160000]⟩

class Facts : Prop where
  bcast_S_S16x10000x32 : S_.BroadcastsInDim S16x10000x32 (![] : Fin 0 → Fin S16x10000x32.rank)
  reducesTo_S16x10000x32_S_d0_1_2 : S16x10000x32.ReducesTo [0, 1, 2] S_
  h_S_ : 0 < S_.numel
  bcast_S_S160000 : S_.BroadcastsInDim S160000 (![] : Fin 0 → Fin S160000.rank)
  reducesTo_S160000_S_d0 : S160000.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S2x160000_S1x160000_1_0 : S2x160000.Slices ![1, 0] S1x160000
  shapeCasts_S1x160000_S160000 : S1x160000.ShapeCasts S160000

variable [Facts]

def fn_part2 {F : FTy → Type} [FloatOps F] (main_v28 : IVec S_ 1) (main_v33 : IVec S_ 1) : IVec S_ 1 :=
  let main_v34 : IVec S_ 1 := andi main_v28 main_v33
  main_v34

def fn_part1 {F : FTy → Type} [FloatOps F] (main_arg1 : IVec S2x160000 32) (main_arg6 : FVec F S64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : IVec S1x160000 32 := (extractStridedSlice S1x160000 ![1, 0] · slices_S2x160000_S1x160000_1_0) main_arg1
  let main_v30 : IVec S160000 32 := shapeCast S160000 main_v29 shapeCasts_S1x160000_S160000
  let main_c_10 : IVec S_ 32 := constantI S_ 32 0#32
  let main_v31 : IVec S160000 32 := broadcastInDim S160000 ![] bcast_S_S160000 main_c_10
  let main_v32 : IVec S160000 1 := cmpi .sge main_v30 main_v31
  let main_c_11 : IVec S_ 1 := constantI S_ 1 1#1
  let main_v33 : IVec S_ 1 := (fun x v => Host.reduce IntOp.andi x v reducesTo_S160000_S_d0 h_S_) main_v32 main_c_11
  fn_part2 (F := F) main_v28 main_v33

def fn {F : FTy → Type} [FloatOps F] (main_arg0 : FVec F S16x10000x32 .f32) (main_arg1 : IVec S2x160000 32) (main_arg2 : FVec F S160000 .f32) (main_arg3 : IVec S16x10000x32 1) (main_arg4 : FVec F S32x64 .f32) (main_arg5 : FVec F S64 .f32) (main_arg6 : FVec F S64x32 .f32) (main_arg7 : FVec F S32 .f32) : IVec S_ 1 :=
  let main_v0 : FVec F S16x10000x32 .f32 := Host.absf main_arg0
  let main_cst : FVec F S_ .f32 := constant S_ .f32 0x7F800000#32
  let main_v1 : FVec F S16x10000x32 .f32 := broadcastInDim S16x10000x32 ![] bcast_S_S16x10000x32 main_cst
  let main_v2 : IVec S16x10000x32 1 := cmpf .olt main_v0 main_v1
  let main_c : IVec S_ 1 := constantI S_ 1 1#1
  let main_v3 : IVec S_ 1 := (fun x v => Host.reduce IntOp.andi x v reducesTo_S16x10000x32_S_d0_1_2 h_S_) main_v2 main_c
  let main_v4 : FVec F S160000 .f32 := Host.absf main_arg2
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_v13 main_v16
-- ==== Kernel.lean ====
abbrev S16x10000x32 : Shape := ⟨3, ![16, 10000, 32]⟩
abbrev S2x160000 : Shape := ⟨2, ![2, 160000]⟩
abbrev S160000 : Shape := ⟨1, ![160000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S10000 : Shape := ⟨1, ![10000]⟩
abbrev S1x160000 : Shape := ⟨2, ![1, 160000]⟩
abbrev S170000 : Shape := ⟨1, ![170000]⟩
abbrev S_ : Shape := ⟨0, ![]⟩
abbrev S170000x1 : Shape := ⟨2, ![170000, 1]⟩
abbrev S160000x32 : Shape := ⟨2, ![160000, 32]⟩
abbrev S160000x64 : Shape := ⟨2, ![160000, 64]⟩
abbrev S10000x32 : Shape := ⟨2, ![10000, 32]⟩
abbrev S10000x64 : Shape := ⟨2, ![10000, 64]⟩
abbrev S16x10000x64 : Shape := ⟨3, ![16, 10000, 64]⟩
abbrev S16x170000x64 : Shape := ⟨3, ![16, 170000, 64]⟩
abbrev S1x170000x1 : Shape := ⟨3, ![1, 170000, 1]⟩
abbrev S170000x16x64 : Shape := ⟨3, ![170000, 16, 64]⟩
abbrev S10000x16x64 : Shape := ⟨3, ![10000, 16, 64]⟩
abbrev S1x64 : Shape := ⟨2, ![1, 64]⟩
abbrev S16x170000x32 : Shape := ⟨3, ![16, 170000, 32]⟩
abbrev S170000x16x32 : Shape := ⟨3, ![170000, 16, 32]⟩
abbrev S10000x16x32 : Shape := ⟨3, ![10000, 16, 32]⟩
abbrev S1x32 : Shape := ⟨2, ![1, 32]⟩

abbrev nBuf : Space → Nat
  | .hbm => 108
  | .vmem => 20
  | .smem => 0
  | _ => 0

abbrev bufTy : (tb : Table) → Fin (tcTables nBuf tb) → BufTy
  | .hbm, ⟨0, _⟩ => ⟨S16x10000x32, .f32⟩
  | .hbm, ⟨1, _⟩ => ⟨S2x160000, .i32⟩
  | .hbm, ⟨2, _⟩ => ⟨S160000, .f32⟩
  | .hbm, ⟨3, _⟩ => ⟨S16x10000x32, .i1⟩
  | .hbm, ⟨4, _⟩ => ⟨S32x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S10000, .i32⟩
  | .hbm, ⟨9, _⟩ => ⟨S1x160000, .i32⟩
  | .hbm, ⟨10, _⟩ => ⟨S160000, .i32⟩
  | .hbm, ⟨11, _⟩ => ⟨S170000, .i32⟩
  | .hbm, ⟨12, _⟩ => ⟨S1x160000, .i32⟩
  | .hbm, ⟨13, _⟩ => ⟨S160000, .i32⟩
  | .hbm, ⟨14, _⟩ => ⟨S170000, .i32⟩
  | .hbm, ⟨15, _⟩ => ⟨S_, .f32⟩
  | .hbm, ⟨16, _⟩ => ⟨S10000, .f32⟩
  | .hbm, ⟨17, _⟩ => ⟨S170000, .f32⟩
  | .hbm, ⟨18, _⟩ => ⟨S_, .f32⟩
  | .hbm, ⟨19, _⟩ => ⟨S10000, .f32⟩
  | .hbm, ⟨20, _⟩ => ⟨S170000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .i1⟩
  | .hbm, ⟨25, _⟩ => ⟨S_, .f32⟩
  | .hbm, ⟨26, _⟩ => ⟨S10000, .f32⟩
  | .hbm, ⟨27, _⟩ => ⟨S10000, .i1⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S10000, .f32⟩
  | .hbm, ⟨33, _⟩ => ⟨S_, .f32⟩
  | .hbm, ⟨34, _⟩ => ⟨S_, .f32⟩
  | .hbm, ⟨35, _⟩ => ⟨S10000, .f32⟩
  | .hbm, ⟨36, _⟩ => ⟨S10000, .f32⟩
  | .hbm, ⟨37, _⟩ => ⟨S_, .i32⟩
  | .hbm, ⟨38, _⟩ => ⟨S170000, .i32⟩
  | .hbm, ⟨39, _⟩ => ⟨S170000, .i1⟩
  | .hbm, ⟨40, _⟩ => ⟨S_, .i32⟩
  | .hbm, ⟨41, _⟩ => ⟨S170000, .i32⟩
  | .hbm, ⟨42, _⟩ => ⟨S170000, .i32⟩
  | .hbm, ⟨43, _⟩ => ⟨S170000, .i32⟩
  | .hbm, ⟨44, _⟩ => ⟨S170000x1, .i32⟩
  | .hbm, ⟨45, _⟩ => ⟨S170000, .f32⟩
  | .hbm, ⟨46, _⟩ => ⟨S170000, .f32⟩
  | .hbm, ⟨47, _⟩ => ⟨S_, .i32⟩
  | .hbm, ⟨48, _⟩ => ⟨S170000, .i32⟩
  | .hbm, ⟨49, _⟩ => ⟨S170000, .i1⟩
  | .hbm, ⟨50, _⟩ => ⟨S_, .i32⟩
  | .hbm, ⟨51, _⟩ => ⟨S170000, .i32⟩
  | .hbm, ⟨52, _⟩ => ⟨S170000, .i32⟩
  | .hbm, ⟨53, _⟩ => ⟨S170000, .i32⟩
  | .hbm, ⟨54, _⟩ => ⟨S170000x1, .i32⟩
  | .hbm, ⟨55, _⟩ => ⟨S170000, .f32⟩
  | .hbm, ⟨56, _⟩ => ⟨S170000, .f32⟩
  | .hbm, ⟨57, _⟩ => ⟨S160000x32, .f32⟩
  | .hbm, ⟨58, _⟩ => ⟨S160000x64, .f32⟩
  | .hbm, ⟨59, _⟩ => ⟨S16x10000x64, .f32⟩
  | .hbm, ⟨60, _⟩ => ⟨S_, .i32⟩
  | .hbm, ⟨61, _⟩ => ⟨S170000, .i32⟩
  | .hbm, ⟨62, _⟩ => ⟨S170000, .i1⟩
  | .hbm, ⟨63, _⟩ => ⟨S_, .i32⟩
  | .hbm, ⟨64, _⟩ => ⟨S170000, .i32⟩
  | .hbm, ⟨65, _⟩ => ⟨S170000, .i32⟩
  | .hbm, ⟨66, _⟩ => ⟨S170000, .i32⟩
  | .hbm, ⟨67, _⟩ => ⟨S170000x1, .i32⟩
  | .hbm, ⟨68, _⟩ => ⟨S16x170000x64, .f32⟩
  | .hbm, ⟨69, _⟩ => ⟨S1x170000x1, .f32⟩
  | .hbm, ⟨70, _⟩ => ⟨S16x170000x64, .f32⟩
  | .hbm, ⟨71, _⟩ => ⟨S16x170000x64, .f32⟩
  | .hbm, ⟨72, _⟩ => ⟨S170000x16x64, .f32⟩
  | .hbm, ⟨73, _⟩ => ⟨S_, .f32⟩
  | .hbm, ⟨74, _⟩ => ⟨S10000x16x64, .f32⟩
  | .hbm, ⟨75, _⟩ => ⟨S170000x1, .i32⟩
  | .hbm, ⟨76, _⟩ => ⟨S10000x16x64, .f32⟩
  | .hbm, ⟨77, _⟩ => ⟨S16x10000x64, .f32⟩
  | .hbm, ⟨78, _⟩ => ⟨S160000x64, .f32⟩
  | .hbm, ⟨79, _⟩ => ⟨S1x64, .f32⟩
  | .hbm, ⟨80, _⟩ => ⟨S160000x64, .f32⟩
  | .hbm, ⟨81, _⟩ => ⟨S16x10000x64, .f32⟩
  | .hbm, ⟨82, _⟩ => ⟨S160000x64, .f32⟩
  | .hbm, ⟨83, _⟩ => ⟨S160000x32, .f32⟩
  | .hbm, ⟨84, _⟩ => ⟨S16x10000x32, .f32⟩
  | .hbm, ⟨85, _⟩ => ⟨S_, .i32⟩
  | .hbm, ⟨86, _⟩ => ⟨S170000, .i32⟩
  | .hbm, ⟨87, _⟩ => ⟨S170000, .i1⟩
  | .hbm, ⟨88, _⟩ => ⟨S_, .i32⟩
  | .hbm, ⟨89, _⟩ => ⟨S170000, .i32⟩
  | .hbm, ⟨90, _⟩ => ⟨S170000, .i32⟩
  | .hbm, ⟨91, _⟩ => ⟨S170000, .i32⟩
  | .hbm, ⟨92, _⟩ => ⟨S170000x1, .i32⟩
  | .hbm, ⟨93, _⟩ => ⟨S16x170000x32, .f32⟩
  | .hbm, ⟨94, _⟩ => ⟨S1x170000x1, .f32⟩
  | .hbm, ⟨95, _⟩ => ⟨S16x170000x32, .f32⟩
  | .hbm, ⟨96, _⟩ => ⟨S16x170000x32, .f32⟩
  | .hbm, ⟨97, _⟩ => ⟨S170000x16x32, .f32⟩
  | .hbm, ⟨98, _⟩ => ⟨S_, .f32⟩
  | .hbm, ⟨99, _⟩ => ⟨S10000x16x32, .f32⟩
  | .hbm, ⟨100, _⟩ => ⟨S170000x1, .i32⟩
  | .hbm, ⟨101, _⟩ => ⟨S10000x16x32, .f32⟩
  | .hbm, ⟨102, _⟩ => ⟨S16x10000x32, .f32⟩
  | .hbm, ⟨103, _⟩ => ⟨S160000x32, .f32⟩
  | .hbm, ⟨104, _⟩ => ⟨S1x32, .f32⟩
  | .hbm, ⟨105, _⟩ => ⟨S160000x32, .f32⟩
  | .hbm, ⟨106, _⟩ => ⟨S16x10000x32, .f32⟩
  | .hbm, ⟨107, _⟩ => ⟨S_, .i32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | _, _ => ⟨S16x10000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_13 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_14 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S10000 : S_.BroadcastsInDim S10000 (![] : Fin 0 → Fin S10000.rank)
  bcast_S170000_S170000x1_0 : S170000.BroadcastsInDim S170000x1 (![0] : Fin 1 → Fin S170000x1.rank)
  bcast_S_S170000 : S_.BroadcastsInDim S170000 (![] : Fin 0 → Fin S170000.rank)
  shapeCasts_S16x10000x32_S160000x32 : S16x10000x32.ShapeCasts S160000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  shapeCasts_S160000x64_S16x10000x64 : S160000x64.ShapeCasts S16x10000x64
  bcast_S170000_S1x170000x1_1 : S170000.BroadcastsInDim S1x170000x1 (![1] : Fin 1 → Fin S1x170000x1.rank)
  bcast_S1x170000x1_S16x170000x64_0_1_2 : S1x170000x1.BroadcastsInDim S16x170000x64 (![0, 1, 2] : Fin 3 → Fin S16x170000x64.rank)
  transposes_S16x170000x64_S170000x16x64_1_0_2 : S16x170000x64.Transposes [1, 0, 2] S170000x16x64
  bcast_S_S10000x16x64 : S_.BroadcastsInDim S10000x16x64 (![] : Fin 0 → Fin S10000x16x64.rank)
  transposes_S10000x16x64_S16x10000x64_1_0_2 : S10000x16x64.Transposes [1, 0, 2] S16x10000x64
  shapeCasts_S16x10000x64_S160000x64 : S16x10000x64.ShapeCasts S160000x64
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  shapeCasts_S160000x32_S16x10000x32 : S160000x32.ShapeCasts S16x10000x32
  bcast_S1x170000x1_S16x170000x32_0_1_2 : S1x170000x1.BroadcastsInDim S16x170000x32 (![0, 1, 2] : Fin 3 → Fin S16x170000x32.rank)
  transposes_S16x170000x32_S170000x16x32_1_0_2 : S16x170000x32.Transposes [1, 0, 2] S170000x16x32
  bcast_S_S10000x16x32 : S_.BroadcastsInDim S10000x16x32 (![] : Fin 0 → Fin S10000x16x32.rank)
  transposes_S10000x16x32_S16x10000x32_1_0_2 : S10000x16x32.Transposes [1, 0, 2] S16x10000x32
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x32_S32x64_S10000x64_1_0_0_1_n_n_wf : DotDims.WF S10000x32 S32x64 S10000x64 [1] [0] [0] [1] [] []
  gather_S16x10000x64_S170000x1_S16x170000x64_02_1_n_n_1_1_16164_wf : GatherDims.WF S16x10000x64 S170000x1 S16x170000x64 [0, 2] [1] [] [1] [] 1 ![16, 1, 64]
  scatter_S10000x16x64_S170000x1_S170000x16x64_12_0_0_1_wf : ScatterDims.WF S10000x16x64 S170000x1 S170000x16x64 [1, 2] [0] [0] 1
  dot_S10000x64_S64x32_S10000x32_1_0_0_1_n_n_wf : DotDims.WF S10000x64 S64x32 S10000x32 [1] [0] [0] [1] [] []
  gather_S16x10000x32_S170000x1_S16x170000x32_02_1_n_n_1_1_16132_wf : GatherDims.WF S16x10000x32 S170000x1 S16x170000x32 [0, 2] [1] [] [1] [] 1 ![16, 1, 32]
  scatter_S10000x16x32_S170000x1_S170000x16x32_12_0_0_1_wf : ScatterDims.WF S10000x16x32 S170000x1 S170000x16x32 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S160000x32.size a
  hwx0_0 : ∀ i : grid0.Coords, EltTy.bits .f32 = 32 ∨ (Rect.block (s := S160000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S160000x64.size a
  hwx0_2 : ∀ i : grid0.Coords, EltTy.bits .f32 = 32 ∨ (Rect.block (s := S160000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S160000x64.size a
  hwx1_0 : ∀ i : grid1.Coords, EltTy.bits .f32 = 32 ∨ (Rect.block (s := S160000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S160000x64.size a
  hwx1_2 : ∀ i : grid1.Coords, EltTy.bits .f32 = 32 ∨ (Rect.block (s := S160000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S160000x64.size a
  hwx2_0 : ∀ i : grid2.Coords, EltTy.bits .f32 = 32 ∨ (Rect.block (s := S160000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S160000x32.size a
  hwx2_2 : ∀ i : grid2.Coords, EltTy.bits .f32 = 32 ∨ (Rect.block (s := S160000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S160000x32.size a
  hwx3_0 : ∀ i : grid3.Coords, EltTy.bits .f32 = 32 ∨ (Rect.block (s := S160000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S160000x32.size a
  hwx3_2 : ∀ i : grid3.Coords, EltTy.bits .f32 = 32 ∨ (Rect.block (s := S160000x32) S10000x32.size (cc3_transform_2 i) (hinb3_2 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S16x10000x64_S170000x1_S16x170000x64_02_1_n_n_1_1_16164 : GatherDims S16x10000x64 S170000x1 S16x170000x64 where
  offsetDims := [0, 2]
  collapsedSliceDims := [1]
  operandBatchingDims := []
  startIndicesBatchingDims := []
  startIndexMap := [1]
  indexVectorDim := 1
  sliceSizes := ![16, 1, 64]
  wf := gather_S16x10000x64_S170000x1_S16x170000x64_02_1_n_n_1_1_16164_wf
def scatter_S10000x16x64_S170000x1_S170000x16x64_12_0_0_1 : ScatterDims S10000x16x64 S170000x1 S170000x16x64 where
  updateWindowDims := [1, 2]
  insertedWindowDims := [0]
  scatterDimsToOperandDims := [0]
  indexVectorDim := 1
  wf := scatter_S10000x16x64_S170000x1_S170000x16x64_12_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S16x10000x32_S170000x1_S16x170000x32_02_1_n_n_1_1_16132 : GatherDims S16x10000x32 S170000x1 S16x170000x32 where
  offsetDims := [0, 2]
  collapsedSliceDims := [1]
  operandBatchingDims := []
  startIndicesBatchingDims := []
  startIndexMap := [1]
  indexVectorDim := 1
  sliceSizes := ![16, 1, 32]
  wf := gather_S16x10000x32_S170000x1_S16x170000x32_02_1_n_n_1_1_16132_wf
def scatter_S10000x16x32_S170000x1_S170000x16x32_12_0_0_1 : ScatterDims S10000x16x32 S170000x1 S170000x16x32 where
  updateWindowDims := [1, 2]
  insertedWindowDims := [0]
  scatterDimsToOperandDims := [0]
  indexVectorDim := 1
  wf := scatter_S10000x16x32_S170000x1_S170000x16x32_12_0_0_1_wf

abbrev win0_0 : Pipeline.Window sig grid0 :=
  Pipeline.Window.ofSpec (Memref.whole main_v35) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v75) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S16x10000x32 : Shape := ⟨3, ![16, 10000, 32]⟩
abbrev S2x160000 : Shape := ⟨2, ![2, 160000]⟩
abbrev S160000 : Shape := ⟨1, ![160000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S10000 : Shape := ⟨1, ![10000]⟩
abbrev S1x160000 : Shape := ⟨2, ![1, 160000]⟩
abbrev S170000 : Shape := ⟨1, ![170000]⟩
abbrev S_ : Shape := ⟨0, ![]⟩
abbrev S170000x1 : Shape := ⟨2, ![170000, 1]⟩
abbrev S16x10000x64 : Shape := ⟨3, ![16, 10000, 64]⟩
abbrev S16x170000x64 : Shape := ⟨3, ![16, 170000, 64]⟩
abbrev S1x170000x1 : Shape := ⟨3, ![1, 170000, 1]⟩
abbrev S1x1x64 : Shape := ⟨3, ![1, 1, 64]⟩
abbrev S16x170000x32 : Shape := ⟨3, ![16, 170000, 32]⟩
abbrev S1x1x32 : Shape := ⟨3, ![1, 1, 32]⟩

abbrev nBuf : Space → Nat
  | .hbm => 115
  | .vmem => 0
  | .smem => 0
  | _ => 0

abbrev bufTy : (tb : Table) → Fin (tcTables nBuf tb) → BufTy
  | .hbm, ⟨0, _⟩ => ⟨S16x10000x32, .f32⟩
  | .hbm, ⟨1, _⟩ => ⟨S2x160000, .i32⟩
  | .hbm, ⟨2, _⟩ => ⟨S160000, .f32⟩
  | .hbm, ⟨3, _⟩ => ⟨S16x10000x32, .i1⟩
  | .hbm, ⟨4, _⟩ => ⟨S32x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S10000, .i32⟩
  | .hbm, ⟨9, _⟩ => ⟨S1x160000, .i32⟩
  | .hbm, ⟨10, _⟩ => ⟨S160000, .i32⟩
  | .hbm, ⟨11, _⟩ => ⟨S170000, .i32⟩
  | .hbm, ⟨12, _⟩ => ⟨S1x160000, .i32⟩
  | .hbm, ⟨13, _⟩ => ⟨S160000, .i32⟩
  | .hbm, ⟨14, _⟩ => ⟨S170000, .i32⟩
  | .hbm, ⟨15, _⟩ => ⟨S_, .f32⟩
  | .hbm, ⟨16, _⟩ => ⟨S10000, .f32⟩
  | .hbm, ⟨17, _⟩ => ⟨S170000, .f32⟩
  | .hbm, ⟨18, _⟩ => ⟨S_, .f32⟩
  | .hbm, ⟨19, _⟩ => ⟨S10000, .f32⟩
  | .hbm, ⟨20, _⟩ => ⟨S170000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .i1⟩
  | .hbm, ⟨25, _⟩ => ⟨S_, .f32⟩
  | .hbm, ⟨26, _⟩ => ⟨S10000, .f32⟩
  | .hbm, ⟨27, _⟩ => ⟨S10000, .i1⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S10000, .f32⟩
  | .hbm, ⟨33, _⟩ => ⟨S_, .f32⟩
  | .hbm, ⟨34, _⟩ => ⟨S_, .f32⟩
  | .hbm, ⟨35, _⟩ => ⟨S10000, .f32⟩
  | .hbm, ⟨36, _⟩ => ⟨S10000, .f32⟩
  | .hbm, ⟨37, _⟩ => ⟨S_, .i32⟩
  | .hbm, ⟨38, _⟩ => ⟨S170000, .i32⟩
  | .hbm, ⟨39, _⟩ => ⟨S170000, .i1⟩
  | .hbm, ⟨40, _⟩ => ⟨S_, .i32⟩
  | .hbm, ⟨41, _⟩ => ⟨S170000, .i32⟩
  | .hbm, ⟨42, _⟩ => ⟨S170000, .i32⟩
  | .hbm, ⟨43, _⟩ => ⟨S170000, .i32⟩
  | .hbm, ⟨44, _⟩ => ⟨S170000x1, .i32⟩
  | .hbm, ⟨45, _⟩ => ⟨S170000, .f32⟩
  | .hbm, ⟨46, _⟩ => ⟨S170000, .f32⟩
  | .hbm, ⟨47, _⟩ => ⟨S_, .i32⟩
  | .hbm, ⟨48, _⟩ => ⟨S170000, .i32⟩
  | .hbm, ⟨49, _⟩ => ⟨S170000, .i1⟩
  | .hbm, ⟨50, _⟩ => ⟨S_, .i32⟩
  | .hbm, ⟨51, _⟩ => ⟨S170000, .i32⟩
  | .hbm, ⟨52, _⟩ => ⟨S170000, .i32⟩
  | .hbm, ⟨53, _⟩ => ⟨S170000, .i32⟩
  | .hbm, ⟨54, _⟩ => ⟨S170000x1, .i32⟩
  | .hbm, ⟨55, _⟩ => ⟨S170000, .f32⟩
  | .hbm, ⟨56, _⟩ => ⟨S170000, .f32⟩
  | .hbm, ⟨57, _⟩ => ⟨S16x10000x64, .f32⟩
  | .hbm, ⟨58, _⟩ => ⟨S_, .i32⟩
  | .hbm, ⟨59, _⟩ => ⟨S170000, .i32⟩
  | .hbm, ⟨60, _⟩ => ⟨S170000, .i1⟩
  | .hbm, ⟨61, _⟩ => ⟨S_, .i32⟩
  | .hbm, ⟨62, _⟩ => ⟨S170000, .i32⟩
  | .hbm, ⟨63, _⟩ => ⟨S170000, .i32⟩
  | .hbm, ⟨64, _⟩ => ⟨S170000, .i32⟩
  | .hbm, ⟨65, _⟩ => ⟨S170000x1, .i32⟩
  | .hbm, ⟨66, _⟩ => ⟨S16x170000x64, .f32⟩
  | .hbm, ⟨67, _⟩ => ⟨S1x170000x1, .f32⟩
  | .hbm, ⟨68, _⟩ => ⟨S16x170000x64, .f32⟩
  | .hbm, ⟨69, _⟩ => ⟨S16x170000x64, .f32⟩
  | .hbm, ⟨70, _⟩ => ⟨S_, .f32⟩
  | .hbm, ⟨71, _⟩ => ⟨S16x10000x64, .f32⟩
  | .hbm, ⟨72, _⟩ => ⟨S_, .i32⟩
  | .hbm, ⟨73, _⟩ => ⟨S170000, .i32⟩
  | .hbm, ⟨74, _⟩ => ⟨S170000, .i1⟩
  | .hbm, ⟨75, _⟩ => ⟨S_, .i32⟩
  | .hbm, ⟨76, _⟩ => ⟨S170000, .i32⟩
  | .hbm, ⟨77, _⟩ => ⟨S170000, .i32⟩
  | .hbm, ⟨78, _⟩ => ⟨S170000, .i32⟩
  | .hbm, ⟨79, _⟩ => ⟨S170000x1, .i32⟩
  | .hbm, ⟨80, _⟩ => ⟨S16x10000x64, .f32⟩
  | .hbm, ⟨81, _⟩ => ⟨S1x1x64, .f32⟩
  | .hbm, ⟨82, _⟩ => ⟨S16x10000x64, .f32⟩
  | .hbm, ⟨83, _⟩ => ⟨S16x10000x64, .f32⟩
  | .hbm, ⟨84, _⟩ => ⟨S_, .f32⟩
  | .hbm, ⟨85, _⟩ => ⟨S16x10000x64, .f32⟩
  | .hbm, ⟨86, _⟩ => ⟨S16x10000x64, .f32⟩
  | .hbm, ⟨87, _⟩ => ⟨S16x10000x32, .f32⟩
  | .hbm, ⟨88, _⟩ => ⟨S_, .i32⟩
  | .hbm, ⟨89, _⟩ => ⟨S170000, .i32⟩
  | .hbm, ⟨90, _⟩ => ⟨S170000, .i1⟩
  | .hbm, ⟨91, _⟩ => ⟨S_, .i32⟩
  | .hbm, ⟨92, _⟩ => ⟨S170000, .i32⟩
  | .hbm, ⟨93, _⟩ => ⟨S170000, .i32⟩
  | .hbm, ⟨94, _⟩ => ⟨S170000, .i32⟩
  | .hbm, ⟨95, _⟩ => ⟨S170000x1, .i32⟩
  | .hbm, ⟨96, _⟩ => ⟨S16x170000x32, .f32⟩
  | .hbm, ⟨97, _⟩ => ⟨S1x170000x1, .f32⟩
  | .hbm, ⟨98, _⟩ => ⟨S16x170000x32, .f32⟩
  | .hbm, ⟨99, _⟩ => ⟨S16x170000x32, .f32⟩
  | .hbm, ⟨100, _⟩ => ⟨S_, .f32⟩
  | .hbm, ⟨101, _⟩ => ⟨S16x10000x32, .f32⟩
  | .hbm, ⟨102, _⟩ => ⟨S_, .i32⟩
  | .hbm, ⟨103, _⟩ => ⟨S170000, .i32⟩
  | .hbm, ⟨104, _⟩ => ⟨S170000, .i1⟩
  | .hbm, ⟨105, _⟩ => ⟨S_, .i32⟩
  | .hbm, ⟨106, _⟩ => ⟨S170000, .i32⟩
  | .hbm, ⟨107, _⟩ => ⟨S170000, .i32⟩
  | .hbm, ⟨108, _⟩ => ⟨S170000, .i32⟩
  | .hbm, ⟨109, _⟩ => ⟨S170000x1, .i32⟩
  | .hbm, ⟨110, _⟩ => ⟨S16x10000x32, .f32⟩
  | .hbm, ⟨111, _⟩ => ⟨S1x1x32, .f32⟩
  | .hbm, ⟨112, _⟩ => ⟨S16x10000x32, .f32⟩
  | .hbm, ⟨113, _⟩ => ⟨S16x10000x32, .f32⟩
  | .hbm, ⟨114, _⟩ => ⟨S_, .i32⟩
  | _, _ => ⟨S16x10000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call2_cst : Ref sig .tc := ⟨.hbm, 84, rfl⟩
abbrev main_call2_v0 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_c_16 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_18 : Ref sig .tc := ⟨.hbm, 114, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S10000 : S_.BroadcastsInDim S10000 (![] : Fin 0 → Fin S10000.rank)
  bcast_S170000_S170000x1_0 : S170000.BroadcastsInDim S170000x1 (![0] : Fin 1 → Fin S170000x1.rank)
  bcast_S_S170000 : S_.BroadcastsInDim S170000 (![] : Fin 0 → Fin S170000.rank)
  bcast_S170000_S1x170000x1_1 : S170000.BroadcastsInDim S1x170000x1 (![1] : Fin 1 → Fin S1x170000x1.rank)
  bcast_S1x170000x1_S16x170000x64_0_1_2 : S1x170000x1.BroadcastsInDim S16x170000x64 (![0, 1, 2] : Fin 3 → Fin S16x170000x64.rank)
  bcast_S_S16x10000x64 : S_.BroadcastsInDim S16x10000x64 (![] : Fin 0 → Fin S16x10000x64.rank)
  bcast_S64_S1x1x64_2 : S64.BroadcastsInDim S1x1x64 (![2] : Fin 1 → Fin S1x1x64.rank)
  bcast_S1x1x64_S16x10000x64_0_1_2 : S1x1x64.BroadcastsInDim S16x10000x64 (![0, 1, 2] : Fin 3 → Fin S16x10000x64.rank)
  bcast_S1x170000x1_S16x170000x32_0_1_2 : S1x170000x1.BroadcastsInDim S16x170000x32 (![0, 1, 2] : Fin 3 → Fin S16x170000x32.rank)
  bcast_S_S16x10000x32 : S_.BroadcastsInDim S16x10000x32 (![] : Fin 0 → Fin S16x10000x32.rank)
  bcast_S32_S1x1x32_2 : S32.BroadcastsInDim S1x1x32 (![2] : Fin 1 → Fin S1x1x32.rank)
  bcast_S1x1x32_S16x10000x32_0_1_2 : S1x1x32.BroadcastsInDim S16x10000x32 (![0, 1, 2] : Fin 3 → Fin S16x10000x32.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S16x10000x32_S32x64_S16x10000x64_2_0_01_1_n_n_wf : DotDims.WF S16x10000x32 S32x64 S16x10000x64 [2] [0] [0, 1] [1] [] []
  gather_S16x10000x64_S170000x1_S16x170000x64_02_1_n_n_1_1_16164_wf : GatherDims.WF S16x10000x64 S170000x1 S16x170000x64 [0, 2] [1] [] [1] [] 1 ![16, 1, 64]
  scatter_S16x10000x64_S170000x1_S16x170000x64_02_1_1_1_wf : ScatterDims.WF S16x10000x64 S170000x1 S16x170000x64 [0, 2] [1] [1] 1
  dot_S16x10000x64_S64x32_S16x10000x32_2_0_01_1_n_n_wf : DotDims.WF S16x10000x64 S64x32 S16x10000x32 [2] [0] [0, 1] [1] [] []
  gather_S16x10000x32_S170000x1_S16x170000x32_02_1_n_n_1_1_16132_wf : GatherDims.WF S16x10000x32 S170000x1 S16x170000x32 [0, 2] [1] [] [1] [] 1 ![16, 1, 32]
  scatter_S16x10000x32_S170000x1_S16x170000x32_02_1_1_1_wf : ScatterDims.WF S16x10000x32 S170000x1 S16x170000x32 [0, 2] [1] [1] 1

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S16x10000x32_S32x64_S16x10000x64_2_0_01_1_n_n : DotDims S16x10000x32 S32x64 S16x10000x64 where
  lhsContracting := [2]
  rhsContracting := [0]
  lhsNonContracting := [0, 1]
  rhsNonContracting := [1]
  lhsBatch := []
  rhsBatch := []
  wf := dot_S16x10000x32_S32x64_S16x10000x64_2_0_01_1_n_n_wf
def gather_S16x10000x64_S170000x1_S16x170000x64_02_1_n_n_1_1_16164 : GatherDims S16x10000x64 S170000x1 S16x170000x64 where
  offsetDims := [0, 2]
  collapsedSliceDims := [1]
  operandBatchingDims := []
  startIndicesBatchingDims := []
  startIndexMap := [1]
  indexVectorDim := 1
  sliceSizes := ![16, 1, 64]
  wf := gather_S16x10000x64_S170000x1_S16x170000x64_02_1_n_n_1_1_16164_wf
def scatter_S16x10000x64_S170000x1_S16x170000x64_02_1_1_1 : ScatterDims S16x10000x64 S170000x1 S16x170000x64 where
  updateWindowDims := [0, 2]
  insertedWindowDims := [1]
  scatterDimsToOperandDims := [1]
  indexVectorDim := 1
  wf := scatter_S16x10000x64_S170000x1_S16x170000x64_02_1_1_1_wf
def dot_S16x10000x64_S64x32_S16x10000x32_2_0_01_1_n_n : DotDims S16x10000x64 S64x32 S16x10000x32 where
  lhsContracting := [2]
  rhsContracting := [0]
  lhsNonContracting := [0, 1]
  rhsNonContracting := [1]
  lhsBatch := []
  rhsBatch := []
  wf := dot_S16x10000x64_S64x32_S16x10000x32_2_0_01_1_n_n_wf
def gather_S16x10000x32_S170000x1_S16x170000x32_02_1_n_n_1_1_16132 : GatherDims S16x10000x32 S170000x1 S16x170000x32 where
  offsetDims := [0, 2]
  collapsedSliceDims := [1]
  operandBatchingDims := []
  startIndicesBatchingDims := []
  startIndexMap := [1]
  indexVectorDim := 1
  sliceSizes := ![16, 1, 32]
  wf := gather_S16x10000x32_S170000x1_S16x170000x32_02_1_n_n_1_1_16132_wf
def scatter_S16x10000x32_S170000x1_S16x170000x32_02_1_1_1 : ScatterDims S16x10000x32 S170000x1 S16x170000x32 where
  updateWindowDims := [0, 2]
  insertedWindowDims := [1]
  scatterDimsToOperandDims := [1]
  indexVectorDim := 1
  wf := scatter_S16x10000x32_S170000x1_S16x170000x32_02_1_1_1_wf

class Facts : Prop extends Facts₀ where

variable [Facts]
-- ==== Proof.Spec.lean ====
/-
  The whole-array value of each kernel region, over the extended reals.

  A projection region multiplies a matrix of rows by a weight matrix: entry `(r, g)` of the result is the sum over the
  inner axis `k` of `X (r, k) * W (k, g)` (`mm`). A bias region adds to every row the one row of biases, entry by entry,
  and the first of the two also clips at zero from below (`biasRelu`, `biasAdd`).
-/
import Idealize.ShloMosaic.PureOps.Ideal
import Idealize.ShloMosaic.Lib.ValueIdx

noncomputable section

open scoped BigOperators

namespace Cert.Spec

open Idealize.ShloMosaic Idealize.ShloMosaic.ValueIdx

/-- Rows of `X` against columns of `W`: entry `(r, g)` is the sum over `k` of `X (r, k) * W (k, g)`. -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- Every row plus the one row of biases, clipped at zero from below. -/
def biasRelu {R C : Nat} (Y : (⟨2, ![R, C]⟩ : Shape).Idx → EReal) (b : (⟨2, ![1, C]⟩ : Shape).Idx → EReal) :
    (⟨2, ![R, C]⟩ : Shape).Idx → EReal :=
  fun i => max (Y i + b (ix2 (0 : Fin 1) (i 1))) 0

/-- Every row plus the one row of biases. -/
def biasAdd {R C : Nat} (Y : (⟨2, ![R, C]⟩ : Shape).Idx → EReal) (b : (⟨2, ![1, C]⟩ : Shape).Idx → EReal) :
    (⟨2, ![R, C]⟩ : Shape).Idx → EReal :=
  fun i => Y i + b (ix2 (0 : Fin 1) (i 1))

end Cert.Spec

end
-- ==== Proof.KTerm.lean ====
/-
  The kernel's program as one term of its arguments.

  Between two regions the host gathers, for every edge, the source node's feature row (`wrapCol`: a negative node number
  counts from the end), scales it by the edge's normalisation weight, and adds it into the destination node's row; the
  destination numbers are used as they are (`col`), so an edge whose destination is not a node number adds nowhere. The
  addition runs over an array whose node axis comes first, so the messages are transposed going in and the sums coming
  out, and the result is laid out as rows for the next region (`layer64`, `layer32`). `out` chains projection, first layer,
  bias and clip, projection, second layer, bias.
-/
import proofs.«114761_j88725434400964_1_alg».proof.KernelIdeal
import proofs.«114761_j88725434400964_1_alg».proof.Proof.Gen.KernelIdeal
import proofs.«114761_j88725434400964_1_alg».proof.Proof.Spec

noncomputable section

namespace Cert.KernelIdeal.Term

open Idealize.ShloMosaic Cert.KernelIdeal Cert.KernelIdeal.Facts₀ Cert.KernelIdeal.Facts

/-- The column of node numbers, a negative one counted from the end. -/
def wrapCol (v : IVec S170000 32) : IVec S170000x1 32 :=
  broadcastInDim S170000x1 ![0] bcast_S170000_S170000x1_0
    (select (cmpi .slt v (broadcastInDim S170000 ![] bcast_S_S170000 (constantI S_ 32 0#32)))
      (addi v (broadcastInDim S170000 ![] bcast_S_S170000 (constantI S_ 32 10000#32))) v)

/-- The column of node numbers as they are. -/
def col (v : IVec S170000 32) : IVec S170000x1 32 :=
  broadcastInDim S170000x1 ![0] bcast_S170000_S170000x1_0 v

/-- The edge weights spread over time steps and 64 features. -/
def spread64 (nrm : S170000.Idx → EReal) : S16x170000x64.Idx → EReal :=
  broadcastInDim S16x170000x64 ![0, 1, 2] bcast_S1x170000x1_S16x170000x64_0_1_2
    (broadcastInDim S1x170000x1 ![1] bcast_S170000_S1x170000x1_1 nrm)

/-- The edge weights spread over time steps and 32 features. -/
def spread32 (nrm : S170000.Idx → EReal) : S16x170000x32.Idx → EReal :=
  broadcastInDim S16x170000x32 ![0, 1, 2] bcast_S1x170000x1_S16x170000x32_0_1_2
    (broadcastInDim S1x170000x1 ![1] bcast_S170000_S1x170000x1_1 nrm)

/-- One aggregation over 64 features, from rows to rows: gather by source, scale, add by destination. -/
def layer64 (XW : S160000x64.Idx → EReal) (sc dc : IVec S170000x1 32) (nb : S16x170000x64.Idx → EReal) :
    S160000x64.Idx → EReal :=
  shapeCast S160000x64
    (transpose S16x10000x64 [1, 0, 2]
      (Host.scatterAdd (F := Ideal) scatter_S10000x16x64_S170000x1_S170000x16x64_12_0_0_1
        (broadcastInDim S10000x16x64 ![] bcast_S_S10000x16x64 (constant (F := Ideal) S_ .f32 0x00000000#32)) dc
        (transpose S170000x16x64 [1, 0, 2]
          (mulf (F := Ideal) (φ := .f32)
            (Host.gather gather_S16x10000x64_S170000x1_S16x170000x64_02_1_n_n_1_1_16164
              (shapeCast S16x10000x64 XW shapeCasts_S160000x64_S16x10000x64) sc) nb)
          transposes_S16x170000x64_S170000x16x64_1_0_2))
      transposes_S10000x16x64_S16x10000x64_1_0_2)
    shapeCasts_S16x10000x64_S160000x64

/-- One aggregation over 32 features, from rows to rows. -/
def layer32 (XW : S160000x32.Idx → EReal) (sc dc : IVec S170000x1 32) (nb : S16x170000x32.Idx → EReal) :
    S160000x32.Idx → EReal :=
  shapeCast S160000x32
    (transpose S16x10000x32 [1, 0, 2]
      (Host.scatterAdd (F := Ideal) scatter_S10000x16x32_S170000x1_S170000x16x32_12_0_0_1
        (broadcastInDim S10000x16x32 ![] bcast_S_S10000x16x32 (constant (F := Ideal) S_ .f32 0x00000000#32)) dc
        (transpose S170000x16x32 [1, 0, 2]
          (mulf (F := Ideal) (φ := .f32)
            (Host.gather gather_S16x10000x32_S170000x1_S16x170000x32_02_1_n_n_1_1_16132
              (shapeCast S16x10000x32 XW shapeCasts_S160000x32_S16x10000x32) sc) nb)
          transposes_S16x170000x32_S170000x16x32_1_0_2))
      transposes_S10000x16x32_S16x10000x32_1_0_2)
    shapeCasts_S16x10000x32_S160000x32

/-- The kernel's result from its arguments, the source and destination node numbers and the edge weights. -/
def out (x0 : S16x10000x32.Idx → EReal) (x4 : S32x64.Idx → EReal) (x5 : S64.Idx → EReal) (x6 : S64x32.Idx → EReal)
    (x7 : S32.Idx → EReal) (s d : IVec S170000 32) (nrm : S170000.Idx → EReal) : S16x10000x32.Idx → EReal :=
  shapeCast S16x10000x32
    (Cert.Spec.biasAdd (R := 160000) (C := 32)
      (layer32
        (Cert.Spec.mm (R := 160000) (K := 64) (C := 32)
          (shapeCast S160000x64
            (shapeCast S16x10000x64
              (Cert.Spec.biasRelu (R := 160000) (C := 64)
                (layer64
                  (Cert.Spec.mm (R := 160000) (K := 32) (C := 64)
                    (shapeCast S160000x32 x0 shapeCasts_S16x10000x32_S160000x32) x4)
                  (wrapCol s) (col d) (spread64 nrm))
                (shapeCast S1x64 x5 shapeCasts_S64_S1x64))
              shapeCasts_S160000x64_S16x10000x64)
            shapeCasts_S16x10000x64_S160000x64)
          x6)
        (wrapCol s) (col d) (spread32 nrm))
      (shapeCast S1x32 x7 shapeCasts_S32_S1x32))
    shapeCasts_S160000x32_S16x10000x32

end Cert.KernelIdeal.Term

end
-- ==== Proof.KVal0.lean ====
/-
  What the first projection region leaves in its output array, whatever the buffers hold when it is entered.

  The grid has one point per time step; point `t` reads rows `10000 t … 10000 t + 9999` of the row matrix and the whole weight
  matrix, and writes the same rows of the result: entry `(r, g)` is the sum over `k` of `X (r, k) * W (k, g)`, the narrowing of
  both operands to the short float format being the identity on the extended reals. The sixteen blocks tile the array.
-/
import proofs.«114761_j88725434400964_1_alg».proof.Proof.Gen.KernelIdeal.Frame
import proofs.«114761_j88725434400964_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The left operand's row coordinate at a result index is the result's row. -/
theorem lhs_row (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl

/-- The left operand's inner coordinate is the summation index. -/
theorem lhs_inner (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q

/-- The right operand's inner coordinate is the summation index. -/
theorem rhs_inner (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q

/-- The right operand's column coordinate at a result index is the result's column. -/
theorem rhs_col (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- One block's product: entry `(p, g)` is the sum over `k` of `x0 (p, k) * x1 (k, g)`. -/
theorem block_apply (x0 : Vec Ideal S10000x32 .f32) (x1 : Vec Ideal S32x64 .f32) (p : Fin 10000) (g : Fin 64) :
    k0_pay1 (F := Ideal) x0 x1 (ix2 p g) = ∑ k : Fin 32, x0 (ix2 p k) * x1 (ix2 k g) := by
  unfold k0_pay1
  rw [shapeCast_self]
  refine (Ideal.matmul_constant_zero_apply dot_S10000x32_S32x64_S10000x64_1_0_0_1_n_n none _ _ (ix2 p g)).trans ?_
  rw [← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p g) ((contrEquiv1 dot_S10000x32_S32x64_S10000x64_1_0_0_1_n_n 32 rfl rfl).symm k) = ix2 p k := funext fun a => Fin.ext (by
    match a with
    | ⟨0, _⟩ => exact lhs_row _ _
    | ⟨1, _⟩ => exact (lhs_inner _ _).trans hk)
  have er : dot_S10000x32_S32x64_S10000x64_1_0_0_1_n_n.rhsIdx (ix2 p g) ((contrEquiv1 dot_S10000x32_S32x64_S10000x64_1_0_0_1_n_n 32 rfl rfl).symm k) = ix2 k g := funext fun a => Fin.ext (by
    match a with
    | ⟨0, _⟩ => exact (rhs_inner _ _).trans hk
    | ⟨1, _⟩ => exact rhs_col _ _)
  rw [el, er]
  rfl

/-- Both offsets of a whole-block access are zero. -/
theorem zero_off : (![0, 0] : Fin 2 → Nat) = fun _ => 0 := funext fun a => by fin_cases a <;> rfl

/-- The block indices at grid point `t`: the row matrix and the result move down one block of rows per point, the weight
    matrix is one block throughout. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is its block of rows of the product of the whole arrays. -/
theorem flushed_eq (c : Dev nD) (t : Fin cfg0.N) :
    (dat0 (F := Ideal) V c).flushed 2 t
      = ((cfg0.win 2).blk t).view.read (Elt Ideal)
          (Cert.Spec.mm (R := 160000) (K := 32) (C := 64) (V c main_v35) (V c main_arg4)) := by
  show (cfg0.win 2).cut (grid0.coords t) ((dat0 (F := Ideal) V c).after 2 t) = _
  rw [after0_2]
  unfold out0_2
  rw [View.canon_unit_zero zero_off]
  simp only [View.ld_unit_zero (S := S10000x32) zero_off, View.ld_unit_zero (S := S32x64) zero_off]
  obtain ⟨e00, e01, e10, e11, e20, e21⟩ := block_index t
  funext j
  obtain ⟨p, g, rfl⟩ : ∃ (p : Fin 10000) (g : Fin 64), j = ix2 p g := ⟨j 0, j 1, eq_ix2 j⟩
  show k0_pay1 (F := Ideal) (iblk0 V c 0 t) (iblk0 V c 1 t) (ix2 p g)
    = Cert.Spec.mm (R := 160000) (K := 32) (C := 64) (V c main_v35) (V c main_arg4) (((cfg0.win 2).blk t).view.emb (ix2 p g))
  refine (block_apply (iblk0 V c 0 t) (iblk0 V c 1 t) p g).trans ?_
  unfold Cert.Spec.mm
  refine Finset.sum_congr rfl fun k _ => ?_
  have h0 : ((cfg0.win 0).blk t).view.emb (ix2 p k) = ix2 ((((cfg0.win 2).blk t).view.emb (ix2 p g)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 32 + 1 * k.val = k.val; omega
  have h1 : ((cfg0.win 1).blk t).view.emb (ix2 k g) = ix2 k ((((cfg0.win 2).blk t).view.emb (ix2 p g)) 1) := by
    funext a; apply Fin.ext
    match a with
    | ⟨0, _⟩ => show win0_1.index t (0 : Fin 2) * 32 + 1 * k.val = k.val; omega
    | ⟨1, _⟩ => show win0_1.index t (1 : Fin 2) * 64 + 1 * g.val = win0_2.index t (1 : Fin 2) * 64 + 1 * g.val; omega
  exact congrArg₂ (fun a b : EReal => a * b) (congrArg (V c main_v35) h0) (congrArg (V c main_arg4) h1)

/-- An index of the result array is in point `t`'s block iff each coordinate is in the block's range on its axis. -/
theorem mem_block (t : Fin cfg0.N) (i : S160000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v36).slice (win0_2.rect t)).set ↔ _
  rw [View.set_slice_whole, Rect.mem_set_unit]
  exact Iff.rfl

/-- The sixteen blocks tile the result array: row `r` is in the block of point `r / 10000`. -/
theorem covered (i : S160000x64.Idx) :
    ∃ t : Fin cfg0.N, (cfg0.win 2).flush t = true ∧ i ∈ ((cfg0.win 2).blk t).view.set := by
  have hi0 : (i 0).val < 160000 := (i 0).isLt
  have hi1 : (i 1).val < 64 := (i 1).isLt
  obtain ⟨t, ht⟩ : ∃ t : Fin cfg0.N, t.val = (i 0).val / 10000 :=
    ⟨⟨(i 0).val / 10000, by rw [show cfg0.N = 16 from N_0]; omega⟩, rfl⟩
  obtain ⟨e00, e01, e10, e11, e20, e21⟩ := block_index t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE ARRAY region 0 leaves: rows of its first operand against columns of its second. -/
theorem final (c : Dev nD) :
    (dat0 (F := Ideal) V c).arrAt 2 cfg0.N
      = Cert.Spec.mm (R := 160000) (K := 32) (C := 64) (V c main_v35) (V c main_arg4) :=
  (dat0 (F := Ideal) V c).arrAt_eq_of_cover 2 _ (fun t _ => flushed_eq V c t) covered

end Cert.KernelIdeal.Region0

end
-- ==== Proof.KVal1.lean ====
/-
  What the first bias region leaves in its output array, whatever the buffers hold when it is entered.

  Point `t` of the grid reads rows `10000 t … 10000 t + 9999` of the aggregated rows and the one row of biases, and writes the
  same rows of the result: entry `(r, g)` is `max (Y (r, g) + b (0, g)) 0`. The sixteen blocks tile the array.
-/
import proofs.«114761_j88725434400964_1_alg».proof.Proof.Gen.KernelIdeal.Frame
import proofs.«114761_j88725434400964_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offset of a whole-block access, as a constant function. -/
theorem off_zero : (![0, 0] : Fin 2 → Nat) = fun _ => 0 := funext fun a => by fin_cases a <;> rfl

/-- The body's arithmetic at an entry: the row's entry plus the bias of its column, clipped at zero from below. -/
theorem pay_apply (x0 : Vec Ideal S10000x64 .f32) (x1 : Vec Ideal S1x64 .f32) (p : Fin 10000) (g : Fin 64) :
    k1_pay1 x0 x1 (ix2 p g) = max (x0 (ix2 p g) + x1 (ix2 (0 : Fin 1) g)) 0 := by
  unfold k1_pay1
  rw [maximumf_apply, addf_apply, broadcast_apply, shapeCast_self, shapeCast_self,
    broadcastTo_apply x1 broadcasts_S1x64_S10000x64 (ix2 p g) (ix2 (0 : Fin 1) g) (fun a => by
      match a with
      | ⟨0, _⟩ => rfl
      | ⟨1, _⟩ => rfl)]
  show max _ (Ideal.ofBits .f32 0x00000000#32) = _
  rw [Ideal.ofBits_zero_f32]

/-- The printed index maps over the grid: the row windows sit at block row t, the bias window at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole-array function at an index, from the two entries read at the places it names. -/
theorem spec_at (Y : S160000x64.Idx → EReal) (b : S1x64.Idx → EReal) (i0 i2 : S160000x64.Idx) (i1 : S1x64.Idx)
    (h0 : i0 = i2) (h1 : i1 = ix2 (0 : Fin 1) (i2 1)) :
    max (Y i0 + b i1) 0 = Cert.Spec.biasRelu (R := 160000) (C := 64) Y b i2 := by
  subst h0 h1; rfl

/-- The whole-array function the region computes, of the two arrays as the region finds them. -/
abbrev target (c : Dev nD) : S160000x64.Idx → EReal :=
  Cert.Spec.biasRelu (R := 160000) (C := 64) (V c main_v53) (V c main_v54)

/-- What grid point t writes back is block t of the whole-array function. -/
theorem flushed_eq (c : Dev nD) (t : Fin cfg1.N) :
    (dat1 (F := Ideal) V c).flushed 2 t = ((cfg1.win 2).blk t).view.read (Elt Ideal) (target V c) := by
  show (cfg1.win 2).cut (grid1.coords t) ((dat1 V c).after 2 t) = _
  rw [after1_2]
  unfold out1_2
  rw [View.canon_unit_zero off_zero]
  simp only [View.ld_unit_zero (S := S10000x64) off_zero, View.ld_unit_zero (S := S1x64) off_zero]
  obtain ⟨e00, e01, e10, e11, e20, e21⟩ := idx_facts t
  funext j
  obtain ⟨p, g, rfl⟩ : ∃ (p : Fin 10000) (g : Fin 64), j = ix2 p g := ⟨j 0, j 1, eq_ix2 j⟩
  show k1_pay1 (iblk1 V c 0 t) (iblk1 V c 1 t) (ix2 p g) = target V c (((cfg1.win 2).blk t).view.emb (ix2 p g))
  rw [pay_apply]
  have h0 : ((cfg1.win 0).blk t).view.emb (ix2 p g) = ((cfg1.win 2).blk t).view.emb (ix2 p g) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * g.val = win1_2.index t (1 : Fin 2) * 64 + 1 * g.val; omega
  have h1 : ((cfg1.win 1).blk t).view.emb (ix2 (0 : Fin 1) g) = ix2 (0 : Fin 1) ((((cfg1.win 2).blk t).view.emb (ix2 p g)) 1) := by
    funext a; apply Fin.ext
    match a with
    | ⟨0, _⟩ => show win1_1.index t (0 : Fin 2) * 1 + 1 * 0 = 0; omega
    | ⟨1, _⟩ => show win1_1.index t (1 : Fin 2) * 64 + 1 * g.val = win1_2.index t (1 : Fin 2) * 64 + 1 * g.val; omega
  exact spec_at (V c main_v53) (V c main_v54) _ _ _ h0 h1

/-- An index of the array is in point t's block iff each coordinate is within the block's range on its axis. -/
theorem mem_blk (t : Fin cfg1.N) (i : S160000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v55).slice (win1_2.rect t)).set ↔ _
  rw [View.set_slice_whole, Rect.mem_set_unit]
  exact Iff.rfl

/-- Every index of the array lies in the block of some grid point: row r is in the block of point r / 10000. -/
theorem cover (i : S160000x64.Idx) :
    ∃ t : Fin cfg1.N, (cfg1.win 2).flush t = true ∧ i ∈ ((cfg1.win 2).blk t).view.set := by
  have hi0 : (i 0).val < 160000 := (i 0).isLt
  have hi1 : (i 1).val < 64 := (i 1).isLt
  obtain ⟨t, ht⟩ : ∃ t : Fin cfg1.N, t.val = (i 0).val / 10000 :=
    ⟨⟨(i 0).val / 10000, by show (i 0).val / 10000 < 16; omega⟩, rfl⟩
  obtain ⟨-, -, -, -, e20, e21⟩ := idx_facts t
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- THE ARRAY region 1 leaves: every row plus the biases, clipped at zero from below. -/
theorem final (c : Dev nD) :
    (dat1 (F := Ideal) V c).arrAt 2 cfg1.N
      = Cert.Spec.biasRelu (R := 160000) (C := 64) (V c main_v53) (V c main_v54) :=
  (dat1 (F := Ideal) V c).arrAt_eq_of_cover 2 (target V c) (fun t _ => flushed_eq V c t) cover

end Cert.KernelIdeal.Region1

end
-- ==== Proof.KVal2.lean ====
/-
  What the second projection region leaves in its output array, whatever the buffers hold when it is entered.

  As the first projection, over 64 inner features and 32 outputs: entry `(r, g)` is the sum over `k` of `X (r, k) * W (k, g)`.
-/
import proofs.«114761_j88725434400964_1_alg».proof.Proof.Gen.KernelIdeal.Frame
import proofs.«114761_j88725434400964_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The left operand's row coordinate at a result index is the result's row. -/
theorem lhs_row (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl

/-- The left operand's inner coordinate is the summation index. -/
theorem lhs_inner (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q

/-- The right operand's inner coordinate is the summation index. -/
theorem rhs_inner (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q

/-- The right operand's column coordinate at a result index is the result's column. -/
theorem rhs_col (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- One block's product: entry `(p, g)` is the sum over `k` of `x0 (p, k) * x1 (k, g)`. -/
theorem block_apply (x0 : Vec Ideal S10000x64 .f32) (x1 : Vec Ideal S64x32 .f32) (p : Fin 10000) (g : Fin 32) :
    k2_pay1 (F := Ideal) x0 x1 (ix2 p g) = ∑ k : Fin 64, x0 (ix2 p k) * x1 (ix2 k g) := by
  unfold k2_pay1
  rw [shapeCast_self]
  refine (Ideal.matmul_constant_zero_apply dot_S10000x64_S64x32_S10000x32_1_0_0_1_n_n none _ _ (ix2 p g)).trans ?_
  rw [← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p g) ((contrEquiv1 dot_S10000x64_S64x32_S10000x32_1_0_0_1_n_n 64 rfl rfl).symm k) = ix2 p k := funext fun a => Fin.ext (by
    match a with
    | ⟨0, _⟩ => exact lhs_row _ _
    | ⟨1, _⟩ => exact (lhs_inner _ _).trans hk)
  have er : dot_S10000x64_S64x32_S10000x32_1_0_0_1_n_n.rhsIdx (ix2 p g) ((contrEquiv1 dot_S10000x64_S64x32_S10000x32_1_0_0_1_n_n 64 rfl rfl).symm k) = ix2 k g := funext fun a => Fin.ext (by
    match a with
    | ⟨0, _⟩ => exact (rhs_inner _ _).trans hk
    | ⟨1, _⟩ => exact rhs_col _ _)
  rw [el, er]
  rfl

/-- Both offsets of a whole-block access are zero. -/
theorem zero_off : (![0, 0] : Fin 2 → Nat) = fun _ => 0 := funext fun a => by fin_cases a <;> rfl

/-- The block indices at grid point `t`: the row matrix and the result move down one block of rows per point, the weight
    matrix is one block throughout. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is its block of rows of the product of the whole arrays. -/
theorem flushed_eq (c : Dev nD) (t : Fin cfg2.N) :
    (dat2 (F := Ideal) V c).flushed 2 t
      = ((cfg2.win 2).blk t).view.read (Elt Ideal)
          (Cert.Spec.mm (R := 160000) (K := 64) (C := 32) (V c main_v57) (V c main_arg6)) := by
  show (cfg2.win 2).cut (grid2.coords t) ((dat2 (F := Ideal) V c).after 2 t) = _
  rw [after2_2]
  unfold out2_2
  rw [View.canon_unit_zero zero_off]
  simp only [View.ld_unit_zero (S := S10000x64) zero_off, View.ld_unit_zero (S := S64x32) zero_off]
  obtain ⟨e00, e01, e10, e11, e20, e21⟩ := block_index t
  funext j
  obtain ⟨p, g, rfl⟩ : ∃ (p : Fin 10000) (g : Fin 32), j = ix2 p g := ⟨j 0, j 1, eq_ix2 j⟩
  show k2_pay1 (F := Ideal) (iblk2 V c 0 t) (iblk2 V c 1 t) (ix2 p g)
    = Cert.Spec.mm (R := 160000) (K := 64) (C := 32) (V c main_v57) (V c main_arg6) (((cfg2.win 2).blk t).view.emb (ix2 p g))
  refine (block_apply (iblk2 V c 0 t) (iblk2 V c 1 t) p g).trans ?_
  unfold Cert.Spec.mm
  refine Finset.sum_congr rfl fun k _ => ?_
  have h0 : ((cfg2.win 0).blk t).view.emb (ix2 p k) = ix2 ((((cfg2.win 2).blk t).view.emb (ix2 p g)) 0) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have h1 : ((cfg2.win 1).blk t).view.emb (ix2 k g) = ix2 k ((((cfg2.win 2).blk t).view.emb (ix2 p g)) 1) := by
    funext a; apply Fin.ext
    match a with
    | ⟨0, _⟩ => show win2_1.index t (0 : Fin 2) * 64 + 1 * k.val = k.val; omega
    | ⟨1, _⟩ => show win2_1.index t (1 : Fin 2) * 32 + 1 * g.val = win2_2.index t (1 : Fin 2) * 32 + 1 * g.val; omega
  exact congrArg₂ (fun a b : EReal => a * b) (congrArg (V c main_v57) h0) (congrArg (V c main_arg6) h1)

/-- An index of the result array is in point `t`'s block iff each coordinate is in the block's range on its axis. -/
theorem mem_block (t : Fin cfg2.N) (i : S160000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v58).slice (win2_2.rect t)).set ↔ _
  rw [View.set_slice_whole, Rect.mem_set_unit]
  exact Iff.rfl

/-- The sixteen blocks tile the result array: row `r` is in the block of point `r / 10000`. -/
theorem covered (i : S160000x32.Idx) :
    ∃ t : Fin cfg2.N, (cfg2.win 2).flush t = true ∧ i ∈ ((cfg2.win 2).blk t).view.set := by
  have hi0 : (i 0).val < 160000 := (i 0).isLt
  have hi1 : (i 1).val < 32 := (i 1).isLt
  obtain ⟨t, ht⟩ : ∃ t : Fin cfg2.N, t.val = (i 0).val / 10000 :=
    ⟨⟨(i 0).val / 10000, by rw [show cfg2.N = 16 from N_2]; omega⟩, rfl⟩
  obtain ⟨e00, e01, e10, e11, e20, e21⟩ := block_index t
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- THE ARRAY region 2 leaves: rows of its first operand against columns of its second. -/
theorem final (c : Dev nD) :
    (dat2 (F := Ideal) V c).arrAt 2 cfg2.N
      = Cert.Spec.mm (R := 160000) (K := 64) (C := 32) (V c main_v57) (V c main_arg6) :=
  (dat2 (F := Ideal) V c).arrAt_eq_of_cover 2 _ (fun t _ => flushed_eq V c t) covered

end Cert.KernelIdeal.Region2

end
-- ==== Proof.KVal3.lean ====
/-
  What the second bias region leaves in its output array, whatever the buffers hold when it is entered.

  As the first bias region without the clip, over 32 features: entry `(r, g)` is `Y (r, g) + b (0, g)`.
-/
import proofs.«114761_j88725434400964_1_alg».proof.Proof.Gen.KernelIdeal.Frame
import proofs.«114761_j88725434400964_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offset of a whole-block access, as a constant function. -/
theorem off_zero : (![0, 0] : Fin 2 → Nat) = fun _ => 0 := funext fun a => by fin_cases a <;> rfl

/-- The body's arithmetic at an entry: the row's entry plus the bias of its column. -/
theorem pay_apply (x0 : Vec Ideal S10000x32 .f32) (x1 : Vec Ideal S1x32 .f32) (p : Fin 10000) (g : Fin 32) :
    k3_pay1 x0 x1 (ix2 p g) = x0 (ix2 p g) + x1 (ix2 (0 : Fin 1) g) := by
  unfold k3_pay1
  rw [addf_apply, shapeCast_self, shapeCast_self,
    broadcastTo_apply x1 broadcasts_S1x32_S10000x32 (ix2 p g) (ix2 (0 : Fin 1) g) (fun a => by
      match a with
      | ⟨0, _⟩ => rfl
      | ⟨1, _⟩ => rfl)]

/-- The printed index maps over the grid: the row windows sit at block row t, the bias window at its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The whole-array function at an index, from the two entries read at the places it names. -/
theorem spec_at (Y : S160000x32.Idx → EReal) (b : S1x32.Idx → EReal) (i0 i2 : S160000x32.Idx) (i1 : S1x32.Idx)
    (h0 : i0 = i2) (h1 : i1 = ix2 (0 : Fin 1) (i2 1)) :
    Y i0 + b i1 = Cert.Spec.biasAdd (R := 160000) (C := 32) Y b i2 := by
  subst h0 h1; rfl

/-- The whole-array function the region computes, of the two arrays as the region finds them. -/
abbrev target (c : Dev nD) : S160000x32.Idx → EReal :=
  Cert.Spec.biasAdd (R := 160000) (C := 32) (V c main_v75) (V c main_v76)

/-- What grid point t writes back is block t of the whole-array function. -/
theorem flushed_eq (c : Dev nD) (t : Fin cfg3.N) :
    (dat3 (F := Ideal) V c).flushed 2 t = ((cfg3.win 2).blk t).view.read (Elt Ideal) (target V c) := by
  show (cfg3.win 2).cut (grid3.coords t) ((dat3 V c).after 2 t) = _
  rw [after3_2]
  unfold out3_2
  rw [View.canon_unit_zero off_zero]
  simp only [View.ld_unit_zero (S := S10000x32) off_zero, View.ld_unit_zero (S := S1x32) off_zero]
  obtain ⟨e00, e01, e10, e11, e20, e21⟩ := idx_facts t
  funext j
  obtain ⟨p, g, rfl⟩ : ∃ (p : Fin 10000) (g : Fin 32), j = ix2 p g := ⟨j 0, j 1, eq_ix2 j⟩
  show k3_pay1 (iblk3 V c 0 t) (iblk3 V c 1 t) (ix2 p g) = target V c (((cfg3.win 2).blk t).view.emb (ix2 p g))
  rw [pay_apply]
  have h0 : ((cfg3.win 0).blk t).view.emb (ix2 p g) = ((cfg3.win 2).blk t).view.emb (ix2 p g) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 32 + 1 * g.val = win3_2.index t (1 : Fin 2) * 32 + 1 * g.val; omega
  have h1 : ((cfg3.win 1).blk t).view.emb (ix2 (0 : Fin 1) g) = ix2 (0 : Fin 1) ((((cfg3.win 2).blk t).view.emb (ix2 p g)) 1) := by
    funext a; apply Fin.ext
    match a with
    | ⟨0, _⟩ => show win3_1.index t (0 : Fin 2) * 1 + 1 * 0 = 0; omega
    | ⟨1, _⟩ => show win3_1.index t (1 : Fin 2) * 32 + 1 * g.val = win3_2.index t (1 : Fin 2) * 32 + 1 * g.val; omega
  exact spec_at (V c main_v75) (V c main_v76) _ _ _ h0 h1

/-- An index of the array is in point t's block iff each coordinate is within the block's range on its axis. -/
theorem mem_blk (t : Fin cfg3.N) (i : S160000x32.Idx) :
    i ∈ ((cfg3.win 2).blk t).view.set ↔ ∀ a : Fin 2, win3_2.index t a * S10000x32.size a ≤ (i a).val
      ∧ (i a).val < win3_2.index t a * S10000x32.size a + S10000x32.size a := by
  show i ∈ ((View.whole main_v77).slice (win3_2.rect t)).set ↔ _
  rw [View.set_slice_whole, Rect.mem_set_unit]
  exact Iff.rfl

/-- Every index of the array lies in the block of some grid point: row r is in the block of point r / 10000. -/
theorem cover (i : S160000x32.Idx) :
    ∃ t : Fin cfg3.N, (cfg3.win 2).flush t = true ∧ i ∈ ((cfg3.win 2).blk t).view.set := by
  have hi0 : (i 0).val < 160000 := (i 0).isLt
  have hi1 : (i 1).val < 32 := (i 1).isLt
  obtain ⟨t, ht⟩ : ∃ t : Fin cfg3.N, t.val = (i 0).val / 10000 :=
    ⟨⟨(i 0).val / 10000, by show (i 0).val / 10000 < 16; omega⟩, rfl⟩
  obtain ⟨-, -, -, -, e20, e21⟩ := idx_facts t
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 32 ≤ (i 1).val ∧ (i 1).val < win3_2.index t (1 : Fin 2) * 32 + 32
    omega

/-- THE ARRAY region 3 leaves: every row plus the biases. -/
theorem final (c : Dev nD) :
    (dat3 (F := Ideal) V c).arrAt 2 cfg3.N
      = Cert.Spec.biasAdd (R := 160000) (C := 32) (V c main_v75) (V c main_v76) :=
  (dat3 (F := Ideal) V c).arrAt_eq_of_cover 2 (target V c) (fun t _ => flushed_eq V c t) cover

end Cert.KernelIdeal.Region3

end
-- ==== Proof.KThread.lean ====
/-
  The kernel's result read off its run.

  The run's final memory is a fold through five stretches of host operations and four regions. Read back from the result
  buffer: the last stretch lays the second bias region's rows out as `[16, 10000, 32]`; that region adds the bias row to the
  second aggregation's rows; the aggregation gathers, scales and adds the second projection's rows; the projection
  multiplies the rows the first bias region left by the second weight matrix; and so on down to the arguments. The
  source numbers, the destination numbers and the edge weights are computed once, before the first region, by the same
  operations as the reference's, and no later stretch or region writes them.
-/
import proofs.«114761_j88725434400964_1_alg».proof.Proof.Gen.KernelIdeal.Frame
import proofs.«114761_j88725434400964_1_alg».proof.Proof.Gen.ReferenceIdeal.Read
import proofs.«114761_j88725434400964_1_alg».proof.Proof.KTerm
import proofs.«114761_j88725434400964_1_alg».proof.Proof.KVal0
import proofs.«114761_j88725434400964_1_alg».proof.Proof.KVal1
import proofs.«114761_j88725434400964_1_alg».proof.Proof.KVal2
import proofs.«114761_j88725434400964_1_alg».proof.Proof.KVal3
import Idealize.ShloMosaic.Lib.StableHlo.Run

set_option maxRecDepth 65536

noncomputable section

namespace Cert.KernelIdeal.Thread

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Before the first region -/

/-- The source node numbers: row 0 of the edge table, then the self loops' node numbers. -/
theorem W5_v3 (c : Dev nD) : W5 m ρ c (Proc.devRef .tc main_v3)
    = Cert.ReferenceIdeal.Read.val_main_v3 (F := Ideal) (m ((c : Thread nD τ).loc main_arg1)) := by
  after_results_simp <;> rfl

/-- The destination node numbers: row 1 of the edge table, then the self loops' node numbers. -/
theorem W5_v6 (c : Dev nD) : W5 m ρ c (Proc.devRef .tc main_v6)
    = Cert.ReferenceIdeal.Read.val_main_v6 (F := Ideal) (m ((c : Thread nD τ).loc main_arg1)) := by
  after_results_simp <;> rfl

set_option maxRecDepth 1000000 in
set_option maxHeartbeats 4000000 in
/-- The edge weights after the symmetric normalisation, by the same operations as the reference's. -/
theorem W5_v34 (c : Dev nD) : W5 m ρ c (Proc.devRef .tc main_v34)
    = Cert.ReferenceIdeal.Read.val_main_v34 (F := Ideal) (m ((c : Thread nD τ).loc main_arg1))
        (m ((c : Thread nD τ).loc main_arg2)) := by
  after_results_simp <;> rfl

/-- The input laid out as rows. -/
theorem W5_v35 (c : Dev nD) : W5 m ρ c (Proc.devRef .tc main_v35)
    = shapeCast S160000x32 (m ((c : Thread nD τ).loc main_arg0)) Facts₀.shapeCasts_S16x10000x32_S160000x32 := by
  after_results_simp <;> rfl

/-- The first weight matrix is as launched. -/
theorem W5_arg4 (c : Dev nD) : W5 m ρ c (Proc.devRef .tc main_arg4) = m ((c : Thread nD τ).loc main_arg4) := by
  after_results_simp <;> rfl

/-- The first bias is as launched. -/
theorem W5_arg5 (c : Dev nD) : W5 m ρ c (Proc.devRef .tc main_arg5) = m ((c : Thread nD τ).loc main_arg5) := by
  after_results_simp <;> rfl

/-- The second weight matrix is as launched. -/
theorem W5_arg6 (c : Dev nD) : W5 m ρ c (Proc.devRef .tc main_arg6) = m ((c : Thread nD τ).loc main_arg6) := by
  after_results_simp <;> rfl

/-- The second bias is as launched. -/
theorem W5_arg7 (c : Dev nD) : W5 m ρ c (Proc.devRef .tc main_arg7) = m ((c : Thread nD τ).loc main_arg7) := by
  after_results_simp <;> rfl

/-! ## The first region and the stretch after it -/

/-- The first region leaves the rows of the input against the first weight matrix. -/
theorem W6_v36 (c : Dev nD) : W6 m ρ c (Proc.devRef .tc main_v36)
    = Cert.Spec.mm (R := 160000) (K := 32) (C := 64) (W5 m ρ c (Proc.devRef .tc main_v35)) (W5 m ρ c (Proc.devRef .tc main_arg4)) :=
  (W6_arr m ρ c 2).trans (Cert.KernelIdeal.Region0.final (V5 m ρ) c)

/-- The region does not write this buffer. -/
theorem W6_v3 (c : Dev nD) : W6 m ρ c (Proc.devRef .tc main_v3) = W5 m ρ c (Proc.devRef .tc main_v3) :=
  W6_of_ne m ρ c main_v3 (by decide)

/-- The region does not write this buffer. -/
theorem W6_v6 (c : Dev nD) : W6 m ρ c (Proc.devRef .tc main_v6) = W5 m ρ c (Proc.devRef .tc main_v6) :=
  W6_of_ne m ρ c main_v6 (by decide)

/-- The region does not write this buffer. -/
theorem W6_v34 (c : Dev nD) : W6 m ρ c (Proc.devRef .tc main_v34) = W5 m ρ c (Proc.devRef .tc main_v34) :=
  W6_of_ne m ρ c main_v34 (by decide)

/-- The region does not write this buffer. -/
theorem W6_arg5 (c : Dev nD) : W6 m ρ c (Proc.devRef .tc main_arg5) = W5 m ρ c (Proc.devRef .tc main_arg5) :=
  W6_of_ne m ρ c main_arg5 (by decide)

/-- The region does not write this buffer. -/
theorem W6_arg6 (c : Dev nD) : W6 m ρ c (Proc.devRef .tc main_arg6) = W5 m ρ c (Proc.devRef .tc main_arg6) :=
  W6_of_ne m ρ c main_arg6 (by decide)

/-- The region does not write this buffer. -/
theorem W6_arg7 (c : Dev nD) : W6 m ρ c (Proc.devRef .tc main_arg7) = W5 m ρ c (Proc.devRef .tc main_arg7) :=
  W6_of_ne m ρ c main_arg7 (by decide)

/-- The first aggregation, laid out as rows. -/
theorem W7_v53 (c : Dev nD) : W7 m ρ c (Proc.devRef .tc main_v53)
    = Cert.KernelIdeal.Term.layer64 (W6 m ρ c (Proc.devRef .tc main_v36)) (Cert.KernelIdeal.Term.wrapCol (W6 m ρ c (Proc.devRef .tc main_v3)))
        (Cert.KernelIdeal.Term.col (W6 m ρ c (Proc.devRef .tc main_v6))) (Cert.KernelIdeal.Term.spread64 (W6 m ρ c (Proc.devRef .tc main_v34))) := by
  show StableHlo.after hostOps1 (W6 m ρ c) (Proc.devRef .tc main_v53) = _
  after_results_simp <;> rfl

/-- The first bias as one row. -/
theorem W7_v54 (c : Dev nD) : W7 m ρ c (Proc.devRef .tc main_v54)
    = shapeCast S1x64 (W6 m ρ c (Proc.devRef .tc main_arg5)) Facts₀.shapeCasts_S64_S1x64 := by
  show StableHlo.after hostOps1 (W6 m ρ c) (Proc.devRef .tc main_v54) = _
  after_results_simp <;> rfl

/-- The stretch does not write this buffer. -/
theorem W7_v3 (c : Dev nD) : W7 m ρ c (Proc.devRef .tc main_v3) = W6 m ρ c (Proc.devRef .tc main_v3) := by
  show StableHlo.after hostOps1 (W6 m ρ c) (Proc.devRef .tc main_v3) = _
  after_results_simp <;> rfl

/-- The stretch does not write this buffer. -/
theorem W7_v6 (c : Dev nD) : W7 m ρ c (Proc.devRef .tc main_v6) = W6 m ρ c (Proc.devRef .tc main_v6) := by
  show StableHlo.after hostOps1 (W6 m ρ c) (Proc.devRef .tc main_v6) = _
  after_results_simp <;> rfl

/-- The stretch does not write this buffer. -/
theorem W7_v34 (c : Dev nD) : W7 m ρ c (Proc.devRef .tc main_v34) = W6 m ρ c (Proc.devRef .tc main_v34) := by
  show StableHlo.after hostOps1 (W6 m ρ c) (Proc.devRef .tc main_v34) = _
  after_results_simp <;> rfl

/-- The stretch does not write this buffer. -/
theorem W7_arg6 (c : Dev nD) : W7 m ρ c (Proc.devRef .tc main_arg6) = W6 m ρ c (Proc.devRef .tc main_arg6) := by
  show StableHlo.after hostOps1 (W6 m ρ c) (Proc.devRef .tc main_arg6) = _
  after_results_simp <;> rfl

/-- The stretch does not write this buffer. -/
theorem W7_arg7 (c : Dev nD) : W7 m ρ c (Proc.devRef .tc main_arg7) = W6 m ρ c (Proc.devRef .tc main_arg7) := by
  show StableHlo.after hostOps1 (W6 m ρ c) (Proc.devRef .tc main_arg7) = _
  after_results_simp <;> rfl

/-! ## The second region and the stretch after it -/

/-- The second region leaves the aggregated rows plus the bias, clipped at zero. -/
theorem W8_v55 (c : Dev nD) : W8 m ρ c (Proc.devRef .tc main_v55)
    = Cert.Spec.biasRelu (R := 160000) (C := 64) (W7 m ρ c (Proc.devRef .tc main_v53)) (W7 m ρ c (Proc.devRef .tc main_v54)) :=
  (W8_arr m ρ c 2).trans (Cert.KernelIdeal.Region1.final (V7 m ρ) c)

/-- The region does not write this buffer. -/
theorem W8_v3 (c : Dev nD) : W8 m ρ c (Proc.devRef .tc main_v3) = W7 m ρ c (Proc.devRef .tc main_v3) :=
  W8_of_ne m ρ c main_v3 (by decide)

/-- The region does not write this buffer. -/
theorem W8_v6 (c : Dev nD) : W8 m ρ c (Proc.devRef .tc main_v6) = W7 m ρ c (Proc.devRef .tc main_v6) :=
  W8_of_ne m ρ c main_v6 (by decide)

/-- The region does not write this buffer. -/
theorem W8_v34 (c : Dev nD) : W8 m ρ c (Proc.devRef .tc main_v34) = W7 m ρ c (Proc.devRef .tc main_v34) :=
  W8_of_ne m ρ c main_v34 (by decide)

/-- The region does not write this buffer. -/
theorem W8_arg6 (c : Dev nD) : W8 m ρ c (Proc.devRef .tc main_arg6) = W7 m ρ c (Proc.devRef .tc main_arg6) :=
  W8_of_ne m ρ c main_arg6 (by decide)

/-- The region does not write this buffer. -/
theorem W8_arg7 (c : Dev nD) : W8 m ρ c (Proc.devRef .tc main_arg7) = W7 m ρ c (Proc.devRef .tc main_arg7) :=
  W8_of_ne m ρ c main_arg7 (by decide)

/-- The activations, reshaped to `[16, 10000, 64]` and back to rows. -/
theorem W9_v57 (c : Dev nD) : W9 m ρ c (Proc.devRef .tc main_v57)
    = shapeCast S160000x64 (shapeCast S16x10000x64 (W8 m ρ c (Proc.devRef .tc main_v55)) Facts₀.shapeCasts_S160000x64_S16x10000x64)
        Facts₀.shapeCasts_S16x10000x64_S160000x64 := by
  show StableHlo.after hostOps2 (W8 m ρ c) (Proc.devRef .tc main_v57) = _
  after_results_simp <;> rfl

/-- The stretch does not write this buffer. -/
theorem W9_v3 (c : Dev nD) : W9 m ρ c (Proc.devRef .tc main_v3) = W8 m ρ c (Proc.devRef .tc main_v3) := by
  show StableHlo.after hostOps2 (W8 m ρ c) (Proc.devRef .tc main_v3) = _
  after_results_simp <;> rfl

/-- The stretch does not write this buffer. -/
theorem W9_v6 (c : Dev nD) : W9 m ρ c (Proc.devRef .tc main_v6) = W8 m ρ c (Proc.devRef .tc main_v6) := by
  show StableHlo.after hostOps2 (W8 m ρ c) (Proc.devRef .tc main_v6) = _
  after_results_simp <;> rfl

/-- The stretch does not write this buffer. -/
theorem W9_v34 (c : Dev nD) : W9 m ρ c (Proc.devRef .tc main_v34) = W8 m ρ c (Proc.devRef .tc main_v34) := by
  show StableHlo.after hostOps2 (W8 m ρ c) (Proc.devRef .tc main_v34) = _
  after_results_simp <;> rfl

/-- The stretch does not write this buffer. -/
theorem W9_arg6 (c : Dev nD) : W9 m ρ c (Proc.devRef .tc main_arg6) = W8 m ρ c (Proc.devRef .tc main_arg6) := by
  show StableHlo.after hostOps2 (W8 m ρ c) (Proc.devRef .tc main_arg6) = _
  after_results_simp <;> rfl

/-- The stretch does not write this buffer. -/
theorem W9_arg7 (c : Dev nD) : W9 m ρ c (Proc.devRef .tc main_arg7) = W8 m ρ c (Proc.devRef .tc main_arg7) := by
  show StableHlo.after hostOps2 (W8 m ρ c) (Proc.devRef .tc main_arg7) = _
  after_results_simp <;> rfl

/-! ## The third region and the stretch after it -/

/-- The third region leaves the rows of the activations against the second weight matrix. -/
theorem W10_v58 (c : Dev nD) : W10 m ρ c (Proc.devRef .tc main_v58)
    = Cert.Spec.mm (R := 160000) (K := 64) (C := 32) (W9 m ρ c (Proc.devRef .tc main_v57)) (W9 m ρ c (Proc.devRef .tc main_arg6)) :=
  (W10_arr m ρ c 2).trans (Cert.KernelIdeal.Region2.final (V9 m ρ) c)

/-- The region does not write this buffer. -/
theorem W10_v3 (c : Dev nD) : W10 m ρ c (Proc.devRef .tc main_v3) = W9 m ρ c (Proc.devRef .tc main_v3) :=
  W10_of_ne m ρ c main_v3 (by decide)

/-- The region does not write this buffer. -/
theorem W10_v6 (c : Dev nD) : W10 m ρ c (Proc.devRef .tc main_v6) = W9 m ρ c (Proc.devRef .tc main_v6) :=
  W10_of_ne m ρ c main_v6 (by decide)

/-- The region does not write this buffer. -/
theorem W10_v34 (c : Dev nD) : W10 m ρ c (Proc.devRef .tc main_v34) = W9 m ρ c (Proc.devRef .tc main_v34) :=
  W10_of_ne m ρ c main_v34 (by decide)

/-- The region does not write this buffer. -/
theorem W10_arg7 (c : Dev nD) : W10 m ρ c (Proc.devRef .tc main_arg7) = W9 m ρ c (Proc.devRef .tc main_arg7) :=
  W10_of_ne m ρ c main_arg7 (by decide)

/-- The second aggregation, laid out as rows. -/
theorem W11_v75 (c : Dev nD) : W11 m ρ c (Proc.devRef .tc main_v75)
    = Cert.KernelIdeal.Term.layer32 (W10 m ρ c (Proc.devRef .tc main_v58)) (Cert.KernelIdeal.Term.wrapCol (W10 m ρ c (Proc.devRef .tc main_v3)))
        (Cert.KernelIdeal.Term.col (W10 m ρ c (Proc.devRef .tc main_v6))) (Cert.KernelIdeal.Term.spread32 (W10 m ρ c (Proc.devRef .tc main_v34))) := by
  show StableHlo.after hostOps3 (W10 m ρ c) (Proc.devRef .tc main_v75) = _
  after_results_simp <;> rfl

/-- The second bias as one row. -/
theorem W11_v76 (c : Dev nD) : W11 m ρ c (Proc.devRef .tc main_v76)
    = shapeCast S1x32 (W10 m ρ c (Proc.devRef .tc main_arg7)) Facts₀.shapeCasts_S32_S1x32 := by
  show StableHlo.after hostOps3 (W10 m ρ c) (Proc.devRef .tc main_v76) = _
  after_results_simp <;> rfl

/-! ## The fourth region and the last stretch -/

/-- The fourth region leaves the aggregated rows plus the bias. -/
theorem W12_v77 (c : Dev nD) : W12 m ρ c (Proc.devRef .tc main_v77)
    = Cert.Spec.biasAdd (R := 160000) (C := 32) (W11 m ρ c (Proc.devRef .tc main_v75)) (W11 m ρ c (Proc.devRef .tc main_v76)) :=
  (W12_arr m ρ c 2).trans (Cert.KernelIdeal.Region3.final (V11 m ρ) c)

/-- The result: the last region's rows as `[16, 10000, 32]`. -/
theorem W13_v78 (c : Dev nD) : W13 m ρ c (Proc.devRef .tc main_v78)
    = shapeCast S16x10000x32 (W12 m ρ c (Proc.devRef .tc main_v77)) Facts₀.shapeCasts_S160000x32_S16x10000x32 := by
  show StableHlo.after hostOps4 (W12 m ρ c) (Proc.devRef .tc main_v78) = _
  after_results_simp <;> rfl

/-- The second result is the constant zero. -/
theorem kernel_c14 (c : Dev nD) : W13 m ρ c (Proc.devRef .tc main_c_14) = constantI S_ 32 0#32 := by
  show StableHlo.after hostOps4 (W12 m ρ c) (Proc.devRef .tc main_c_14) = _
  after_results_simp <;> rfl

/-! ## The whole -/

/-- THE KERNEL'S RESULT: the program's term of the arguments, the source and destination node numbers and the edge
    weights. -/
theorem kernel_value (c : Dev nD) : W13 m ρ c (Proc.devRef .tc main_v78)
    = Cert.KernelIdeal.Term.out (m ((c : Thread nD τ).loc main_arg0)) (m ((c : Thread nD τ).loc main_arg4))
        (m ((c : Thread nD τ).loc main_arg5)) (m ((c : Thread nD τ).loc main_arg6)) (m ((c : Thread nD τ).loc main_arg7))
        (Cert.ReferenceIdeal.Read.val_main_v3 (F := Ideal) (m ((c : Thread nD τ).loc main_arg1)))
        (Cert.ReferenceIdeal.Read.val_main_v6 (F := Ideal) (m ((c : Thread nD τ).loc main_arg1)))
        (Cert.ReferenceIdeal.Read.val_main_v34 (F := Ideal) (m ((c : Thread nD τ).loc main_arg1))
          (m ((c : Thread nD τ).loc main_arg2))) := by
  rw [W13_v78, W12_v77, W11_v75, W11_v76, W10_v58, W10_v3, W10_v6, W10_v34, W10_arg7, W9_v57, W9_v3, W9_v6, W9_v34,
    W9_arg6, W9_arg7, W8_v55, W8_v3, W8_v6, W8_v34, W8_arg6, W8_arg7, W7_v53, W7_v54, W7_v3, W7_v6, W7_v34, W7_arg6,
    W7_arg7, W6_v36, W6_v3, W6_v6, W6_v34, W6_arg5, W6_arg6, W6_arg7, W5_v3, W5_v6, W5_v34, W5_v35, W5_arg4, W5_arg5,
    W5_arg6, W5_arg7]
  rfl

end Cert.KernelIdeal.Thread

end
-- ==== Proof.RTerm.lean ====
/-
  The reference's program as one term of its arguments, the source and destination node numbers and the edge weights.

  A layer gathers every edge's source row (a negative node number counted from the end), scales it by the edge's weight
  and adds it into the destination node's row, the destination number too counted from the end when negative
  (`layer64`, `layer32`). `out` chains projection, layer, bias and clip, projection, layer, bias; it is the generated
  stage `val_main_v79` with the three shared chains (source numbers, destination numbers, edge weights) named.
-/
import proofs.«114761_j88725434400964_1_alg».proof.ReferenceIdeal
import proofs.«114761_j88725434400964_1_alg».proof.Proof.Gen.ReferenceIdeal
import proofs.«114761_j88725434400964_1_alg».proof.Proof.Gen.ReferenceIdeal.Read

noncomputable section

namespace Cert.ReferenceIdeal.Term

open Idealize.ShloMosaic Cert.ReferenceIdeal Cert.ReferenceIdeal.Facts₀ Cert.ReferenceIdeal.Facts

/-- The column of node numbers, a negative one counted from the end. -/
def wrapCol (v : IVec S170000 32) : IVec S170000x1 32 :=
  broadcastInDim S170000x1 ![0] bcast_S170000_S170000x1_0
    (select (cmpi .slt v (broadcastInDim S170000 ![] bcast_S_S170000 (constantI S_ 32 0#32)))
      (addi v (broadcastInDim S170000 ![] bcast_S_S170000 (constantI S_ 32 10000#32))) v)

/-- The edge weights spread over time steps and 64 features. -/
def spread64 (nrm : S170000.Idx → EReal) : S16x170000x64.Idx → EReal :=
  broadcastInDim S16x170000x64 ![0, 1, 2] bcast_S1x170000x1_S16x170000x64_0_1_2
    (broadcastInDim S1x170000x1 ![1] bcast_S170000_S1x170000x1_1 nrm)

/-- The edge weights spread over time steps and 32 features. -/
def spread32 (nrm : S170000.Idx → EReal) : S16x170000x32.Idx → EReal :=
  broadcastInDim S16x170000x32 ![0, 1, 2] bcast_S1x170000x1_S16x170000x32_0_1_2
    (broadcastInDim S1x170000x1 ![1] bcast_S170000_S1x170000x1_1 nrm)

/-- One aggregation over 64 features: gather by source, scale, add by destination along the node axis. -/
def layer64 (Y : S16x10000x64.Idx → EReal) (sc dc : IVec S170000x1 32) (nb : S16x170000x64.Idx → EReal) :
    S16x10000x64.Idx → EReal :=
  Host.scatterAdd (F := Ideal) scatter_S16x10000x64_S170000x1_S16x170000x64_02_1_1_1
    (broadcastInDim S16x10000x64 ![] bcast_S_S16x10000x64 (constant (F := Ideal) S_ .f32 0x00000000#32)) dc
    (mulf (F := Ideal) (φ := .f32)
      (Host.gather gather_S16x10000x64_S170000x1_S16x170000x64_02_1_n_n_1_1_16164 Y sc) nb)

/-- One aggregation over 32 features. -/
def layer32 (Y : S16x10000x32.Idx → EReal) (sc dc : IVec S170000x1 32) (nb : S16x170000x32.Idx → EReal) :
    S16x10000x32.Idx → EReal :=
  Host.scatterAdd (F := Ideal) scatter_S16x10000x32_S170000x1_S16x170000x32_02_1_1_1
    (broadcastInDim S16x10000x32 ![] bcast_S_S16x10000x32 (constant (F := Ideal) S_ .f32 0x00000000#32)) dc
    (mulf (F := Ideal) (φ := .f32)
      (Host.gather gather_S16x10000x32_S170000x1_S16x170000x32_02_1_n_n_1_1_16132 Y sc) nb)

/-- The bias over 64 features spread over time steps and nodes. -/
def bias64 (x5 : S64.Idx → EReal) : S16x10000x64.Idx → EReal :=
  broadcastInDim S16x10000x64 ![0, 1, 2] bcast_S1x1x64_S16x10000x64_0_1_2
    (broadcastInDim S1x1x64 ![2] bcast_S64_S1x1x64_2 x5)

/-- The bias over 32 features spread over time steps and nodes. -/
def bias32 (x7 : S32.Idx → EReal) : S16x10000x32.Idx → EReal :=
  broadcastInDim S16x10000x32 ![0, 1, 2] bcast_S1x1x32_S16x10000x32_0_1_2
    (broadcastInDim S1x1x32 ![2] bcast_S32_S1x1x32_2 x7)

/-- Zero everywhere over 64 features. -/
def zero64 : S16x10000x64.Idx → EReal :=
  broadcastInDim S16x10000x64 ![] bcast_S_S16x10000x64 (constant (F := Ideal) S_ .f32 0x00000000#32)

/-- The reference's result from its arguments, the source and destination node numbers and the edge weights. -/
def out (x0 : S16x10000x32.Idx → EReal) (x4 : S32x64.Idx → EReal) (x5 : S64.Idx → EReal) (x6 : S64x32.Idx → EReal)
    (x7 : S32.Idx → EReal) (s d : IVec S170000 32) (nrm : S170000.Idx → EReal) : S16x10000x32.Idx → EReal :=
  addf (F := Ideal) (φ := .f32)
    (layer32
      (Host.dotGeneral (F := Ideal) (φ₁ := .f32) (φ₂ := .f32) dot_S16x10000x64_S64x32_S16x10000x32_2_0_01_1_n_n none
        (maximumf (F := Ideal) (φ := .f32)
          (addf (F := Ideal) (φ := .f32)
            (layer64 (Host.dotGeneral (F := Ideal) (φ₁ := .f32) (φ₂ := .f32) dot_S16x10000x32_S32x64_S16x10000x64_2_0_01_1_n_n none x0 x4)
              (wrapCol s) (wrapCol d) (spread64 nrm))
            (bias64 x5))
          zero64)
        x6)
      (wrapCol s) (wrapCol d) (spread32 nrm))
    (bias32 x7)

set_option maxRecDepth 65536 in
/-- The generated last stage is `out` at the three shared chains. -/
theorem val_eq_out (x0 : S16x10000x32.Idx → EReal) (x1 : IVec S2x160000 32) (x2 : S160000.Idx → EReal)
    (x4 : S32x64.Idx → EReal) (x5 : S64.Idx → EReal) (x6 : S64x32.Idx → EReal) (x7 : S32.Idx → EReal) :
    Cert.ReferenceIdeal.Read.val_main_v79 (F := Ideal) x0 x1 x2 x4 x5 x6 x7
      = out x0 x4 x5 x6 x7 (Cert.ReferenceIdeal.Read.val_main_v3 (F := Ideal) x1)
          (Cert.ReferenceIdeal.Read.val_main_v6 (F := Ideal) x1) (Cert.ReferenceIdeal.Read.val_main_v34 (F := Ideal) x1 x2) :=
  rfl

end Cert.ReferenceIdeal.Term

end
-- ==== Proof.LibRows.lean ====
/-
  A row gather and a row scatter-add read at an index.

  `x[i]` along axis 0 of a matrix or of a rank-3 array is a gather whose start indices are an `[E, 1]` column of row
  numbers: the operand's axis 0 is collapsed and start-indexed, its other axes are offset axes. Result row `e` is the
  operand's row whose number is entry `e` of the column, read as a signed integer and clamped into `[0, N - 1]`
  (`gather_rows2`, `gather_rows3`).

  A segment sum along axis 0 is a scatter with an add body over the same column: the operand's axis 0 is inserted and
  indexed, the other axes are the updates' window axes. At the extended reals the result at row `n` is the operand's
  element plus the sum of the update rows `e` whose row number, read signed and NOT clamped, is `n`; a row number
  outside `[0, N)` lands nowhere and contributes nothing (`scatterAdd_rows2`, `scatterAdd_rows3`).

  Each is proved by reading the dimension numbers' index functions axis by axis: on the row axis the start is the
  column's entry and the window or offset coordinate is 0; on every other axis the start is 0 and the coordinate is
  the update's or result's own. For the scatters this gives "update `(e, c)` lands at `(n, c')` iff entry `e` is `n` and
  `c = c'`", and the filtered sum over update indices is re-indexed by the row `e` alone.
-/
import Idealize.ShloMosaic.PureOps.Ideal
import Idealize.ShloMosaic.PureOps.ShapeOps
import Idealize.ShloMosaic.PureOps.Contract
import Idealize.ShloMosaic.Lib.ValueIdx

noncomputable section

open scoped BigOperators

namespace Cert.LibRows

open Idealize.ShloMosaic Idealize.ShloMosaic.ValueIdx

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Axis 1 of two is not axis 0. -/
theorem fin2_one_nmem : (1 : Fin 2) ∉ ([0] : List (Fin 2)) := by decide
/-- Axis 1 of three is not axis 0. -/
theorem fin3_one_nmem : (1 : Fin 3) ∉ ([0] : List (Fin 3)) := by decide
/-- Axis 2 of three is not axis 0. -/
theorem fin3_two_nmem : (2 : Fin 3) ∉ ([0] : List (Fin 3)) := by decide

/-! ## The row scatter-add over a matrix: `[N, C]` operand, `[E, 1]` row numbers, `[E, C]` updates -/

section Scatter2
variable {N C E w : Nat} (d : ScatterDims ⟨2, ![N, C]⟩ ⟨2, ![E, 1]⟩ ⟨2, ![E, C]⟩)

/-- On the row axis the window of update `(e, c)` starts at row number `e`'s entry, read signed. -/
theorem sc2_start0 (huw : d.updateWindowDims = [1]) (hsd : d.scatterDimsToOperandDims = [0])
    (hivd : d.indexVectorDim = 1) (idx : IVec ⟨2, ![E, 1]⟩ w) (j : (⟨2, ![E, C]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On the column axis, which the map does not name, the window starts at 0. -/
theorem sc2_start1 (hsd : d.scatterDimsToOperandDims = [0])
    (idx : IVec ⟨2, ![E, 1]⟩ w) (j : (⟨2, ![E, C]⟩ : Shape).Idx) :
    d.start j idx 1 = 0 := by
  unfold ScatterDims.start
  rw [dif_neg (by rw [hsd]; exact fin2_one_nmem)]

/-- The row axis is inserted: its window coordinate is 0. -/
theorem sc2_window0 (hiw : d.insertedWindowDims = [0]) (j : (⟨2, ![E, C]⟩ : Shape).Idx) :
    d.window j 0 = 0 := by
  unfold ScatterDims.window
  rw [dif_neg (by rw [ScatterDims.sKept, mem_kept, hiw]; exact fun h => h (List.mem_singleton.mpr rfl))]

/-- The column axis takes the update's column. -/
theorem sc2_window1 (huw : d.updateWindowDims = [1]) (hiw : d.insertedWindowDims = [0])
    (j : (⟨2, ![E, C]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin2_one_nmem)]
  rfl

/-- Update `(e, c)` lands at `(n, c')` exactly when row number `e`'s entry, read signed, is `n` and the columns agree;
    an entry outside `[0, N)` lands nowhere. -/
theorem sc2_resultIdx (huw : d.updateWindowDims = [1]) (hiw : d.insertedWindowDims = [0])
    (hsd : d.scatterDimsToOperandDims = [0]) (hivd : d.indexVectorDim = 1)
    (idx : IVec ⟨2, ![E, 1]⟩ w) (e : Fin E) (c : Fin C) (n : Fin N) (c' : Fin C) :
    d.resultIdx? (ix2 e c) idx = some (ix2 n c') ↔ (idx (ix2 e (0 : Fin 1))).toInt = (n.val : Int) ∧ c = c' := by
  have hs0 : d.start (ix2 e c) idx 0 = (idx (ix2 e (0 : Fin 1))).toInt := sc2_start0 d huw hsd hivd idx _
  have hs1 : d.start (ix2 e c) idx 1 = 0 := sc2_start1 d hsd idx _
  have hw0 : d.window (ix2 e c) 0 = 0 := sc2_window0 d hiw _
  have hw1 : d.window (ix2 e c) 1 = c.val := sc2_window1 d huw hiw _
  generalize (idx (ix2 e (0 : Fin 1))).toInt = z at hs0 ⊢
  have hn := n.isLt
  have hc := c.isLt
  unfold ScatterDims.resultIdx?
  split
  · next h =>
    rw [Option.some.injEq]
    constructor
    · intro hf
      have h0 : (d.start (ix2 e c) idx 0 + (d.window (ix2 e c) 0 : Int)).toNat = n.val :=
        congrArg (fun f : (⟨2, ![N, C]⟩ : Shape).Idx => (f 0).val) hf
      have h1 : (d.start (ix2 e c) idx 1 + (d.window (ix2 e c) 1 : Int)).toNat = c'.val :=
        congrArg (fun f : (⟨2, ![N, C]⟩ : Shape).Idx => (f 1).val) hf
      have h00 := (h 0).1
      rw [hs0, hw0] at h0 h00
      rw [hs1, hw1] at h1
      exact ⟨by omega, Fin.ext (by omega)⟩
    · rintro ⟨hz, rfl⟩
      funext a
      match a with
      | ⟨0, _⟩ =>
        refine Fin.ext ?_
        show (d.start (ix2 e c) idx 0 + (d.window (ix2 e c) 0 : Int)).toNat = n.val
        rw [hs0, hw0]; omega
      | ⟨1, _⟩ =>
        refine Fin.ext ?_
        show (d.start (ix2 e c) idx 1 + (d.window (ix2 e c) 1 : Int)).toNat = c.val
        rw [hs1, hw1]; omega
  · next h =>
    constructor
    · intro hf; cases hf
    · rintro ⟨hz, rfl⟩
      refine absurd ?_ h
      intro a
      match a with
      | ⟨0, _⟩ =>
        show 0 ≤ d.start (ix2 e c) idx 0 + (d.window (ix2 e c) 0 : Int)
          ∧ d.start (ix2 e c) idx 0 + (d.window (ix2 e c) 0 : Int) < (N : Int)
        rw [hs0, hw0]; omega
      | ⟨1, _⟩ =>
        show 0 ≤ d.start (ix2 e c) idx 1 + (d.window (ix2 e c) 1 : Int)
          ∧ d.start (ix2 e c) idx 1 + (d.window (ix2 e c) 1 : Int) < (C : Int)
        rw [hs1, hw1]; omega

/-- THE ROW SCATTER-ADD READ AT `(n, c)` (a segment sum over a matrix: the operand's axis 0 inserted and indexed by the
    `[E, 1]` column of row numbers, its axis 1 the updates' window axis): the operand's element plus the sum of column `c`
    of the update rows `e` whose row number, read signed, is `n`. A row number outside `[0, N)` contributes nowhere. -/
theorem scatterAdd_rows2 (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c) = x (ix2 n c)
      + ∑ e ∈ Finset.univ.filter (fun e : Fin E => (idx (ix2 e (0 : Fin 1))).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin C), j = ix2 e c' := ⟨j 0, j 1, eq_ix2 j⟩
    exact Finset.mem_filter.2 ⟨Finset.mem_univ _,
      ((sc2_resultIdx d huw hiw hsd hivd idx e c' n c).1 (Finset.mem_filter.1 hj).2).1⟩
  · intro e he
    exact Finset.mem_filter.2 ⟨Finset.mem_univ _,
      (sc2_resultIdx d huw hiw hsd hivd idx e c n c).2 ⟨(Finset.mem_filter.1 he).2, rfl⟩⟩
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl
  · intro e _
    rfl
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl

end Scatter2

/-! ## The row scatter-add over a rank-3 array: `[N, H, K]` operand, `[E, 1]` row numbers, `[E, H, K]` updates -/

section Scatter3
variable {N H K E w : Nat} (d : ScatterDims ⟨3, ![N, H, K]⟩ ⟨2, ![E, 1]⟩ ⟨3, ![E, H, K]⟩)

/-- On the row axis the window of update `(e, h, k)` starts at row number `e`'s entry, read signed. -/
theorem sc3_start0 (huw : d.updateWindowDims = [1, 2]) (hsd : d.scatterDimsToOperandDims = [0])
    (hivd : d.indexVectorDim = 1) (idx : IVec ⟨2, ![E, 1]⟩ w) (j : (⟨3, ![E, H, K]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On axis 1, which the map does not name, the window starts at 0. -/
theorem sc3_start1 (hsd : d.scatterDimsToOperandDims = [0])
    (idx : IVec ⟨2, ![E, 1]⟩ w) (j : (⟨3, ![E, H, K]⟩ : Shape).Idx) :
    d.start j idx 1 = 0 := by
  unfold ScatterDims.start
  rw [dif_neg (by rw [hsd]; exact fin3_one_nmem)]

/-- On axis 2, which the map does not name, the window starts at 0. -/
theorem sc3_start2 (hsd : d.scatterDimsToOperandDims = [0])
    (idx : IVec ⟨2, ![E, 1]⟩ w) (j : (⟨3, ![E, H, K]⟩ : Shape).Idx) :
    d.start j idx 2 = 0 := by
  unfold ScatterDims.start
  rw [dif_neg (by rw [hsd]; exact fin3_two_nmem)]

/-- The row axis is inserted: its window coordinate is 0. -/
theorem sc3_window0 (hiw : d.insertedWindowDims = [0]) (j : (⟨3, ![E, H, K]⟩ : Shape).Idx) :
    d.window j 0 = 0 := by
  unfold ScatterDims.window
  rw [dif_neg (by rw [ScatterDims.sKept, mem_kept, hiw]; exact fun h => h (List.mem_singleton.mpr rfl))]

/-- Axis 1 takes the update's coordinate on its axis 1. -/
theorem sc3_window1 (huw : d.updateWindowDims = [1, 2]) (hiw : d.insertedWindowDims = [0])
    (j : (⟨3, ![E, H, K]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin3_one_nmem)]
  rfl

/-- Axis 2 takes the update's coordinate on its axis 2. -/
theorem sc3_window2 (huw : d.updateWindowDims = [1, 2]) (hiw : d.insertedWindowDims = [0])
    (j : (⟨3, ![E, H, K]⟩ : Shape).Idx) :
    d.window j 2 = (j 2).val := by
  obtain ⟨uw, iw, sd, ivd, wf⟩ := d
  simp only at huw hiw
  subst huw hiw
  unfold ScatterDims.window
  rw [dif_pos (by rw [ScatterDims.sKept, mem_kept]; exact fin3_two_nmem)]
  rfl

/-- Update `(e, h, k)` lands at `(n, h', k')` exactly when row number `e`'s entry, read signed, is `n` and the other two
    coordinates agree; an entry outside `[0, N)` lands nowhere. -/
theorem sc3_resultIdx (huw : d.updateWindowDims = [1, 2]) (hiw : d.insertedWindowDims = [0])
    (hsd : d.scatterDimsToOperandDims = [0]) (hivd : d.indexVectorDim = 1)
    (idx : IVec ⟨2, ![E, 1]⟩ w) (e : Fin E) (h : Fin H) (k : Fin K) (n : Fin N) (h' : Fin H) (k' : Fin K) :
    d.resultIdx? (ix3 e h k) idx = some (ix3 n h' k')
      ↔ (idx (ix2 e (0 : Fin 1))).toInt = (n.val : Int) ∧ h = h' ∧ k = k' := by
  have hs0 : d.start (ix3 e h k) idx 0 = (idx (ix2 e (0 : Fin 1))).toInt := sc3_start0 d huw hsd hivd idx _
  have hs1 : d.start (ix3 e h k) idx 1 = 0 := sc3_start1 d hsd idx _
  have hs2 : d.start (ix3 e h k) idx 2 = 0 := sc3_start2 d hsd idx _
  have hw0 : d.window (ix3 e h k) 0 = 0 := sc3_window0 d hiw _
  have hw1 : d.window (ix3 e h k) 1 = h.val := sc3_window1 d huw hiw _
  have hw2 : d.window (ix3 e h k) 2 = k.val := sc3_window2 d huw hiw _
  generalize (idx (ix2 e (0 : Fin 1))).toInt = z at hs0 ⊢
  have hn := n.isLt
  have hh := h.isLt
  have hk := k.isLt
  unfold ScatterDims.resultIdx?
  split
  · next hin =>
    rw [Option.some.injEq]
    constructor
    · intro hf
      have h0 : (d.start (ix3 e h k) idx 0 + (d.window (ix3 e h k) 0 : Int)).toNat = n.val :=
        congrArg (fun f : (⟨3, ![N, H, K]⟩ : Shape).Idx => (f 0).val) hf
      have h1 : (d.start (ix3 e h k) idx 1 + (d.window (ix3 e h k) 1 : Int)).toNat = h'.val :=
        congrArg (fun f : (⟨3, ![N, H, K]⟩ : Shape).Idx => (f 1).val) hf
      have h2 : (d.start (ix3 e h k) idx 2 + (d.window (ix3 e h k) 2 : Int)).toNat = k'.val :=
        congrArg (fun f : (⟨3, ![N, H, K]⟩ : Shape).Idx => (f 2).val) hf
      have h00 := (hin 0).1
      rw [hs0, hw0] at h0 h00
      rw [hs1, hw1] at h1
      rw [hs2, hw2] at h2
      exact ⟨by omega, Fin.ext (by omega), Fin.ext (by omega)⟩
    · rintro ⟨hz, rfl, rfl⟩
      funext a
      match a with
      | ⟨0, _⟩ =>
        refine Fin.ext ?_
        show (d.start (ix3 e h k) idx 0 + (d.window (ix3 e h k) 0 : Int)).toNat = n.val
        rw [hs0, hw0]; omega
      | ⟨1, _⟩ =>
        refine Fin.ext ?_
        show (d.start (ix3 e h k) idx 1 + (d.window (ix3 e h k) 1 : Int)).toNat = h.val
        rw [hs1, hw1]; omega
      | ⟨2, _⟩ =>
        refine Fin.ext ?_
        show (d.start (ix3 e h k) idx 2 + (d.window (ix3 e h k) 2 : Int)).toNat = k.val
        rw [hs2, hw2]; omega
  · next hin =>
    constructor
    · intro hf; cases hf
    · rintro ⟨hz, rfl, rfl⟩
      refine absurd ?_ hin
      intro a
      match a with
      | ⟨0, _⟩ =>
        show 0 ≤ d.start (ix3 e h k) idx 0 + (d.window (ix3 e h k) 0 : Int)
          ∧ d.start (ix3 e h k) idx 0 + (d.window (ix3 e h k) 0 : Int) < (N : Int)
        rw [hs0, hw0]; omega
      | ⟨1, _⟩ =>
        show 0 ≤ d.start (ix3 e h k) idx 1 + (d.window (ix3 e h k) 1 : Int)
          ∧ d.start (ix3 e h k) idx 1 + (d.window (ix3 e h k) 1 : Int) < (H : Int)
        rw [hs1, hw1]; omega
      | ⟨2, _⟩ =>
        show 0 ≤ d.start (ix3 e h k) idx 2 + (d.window (ix3 e h k) 2 : Int)
          ∧ d.start (ix3 e h k) idx 2 + (d.window (ix3 e h k) 2 : Int) < (K : Int)
        rw [hs2, hw2]; omega

/-- THE ROW SCATTER-ADD READ AT `(n, h, k)` (a segment sum over a rank-3 array: the operand's axis 0 inserted and indexed
    by the `[E, 1]` column of row numbers, its axes 1 and 2 the updates' window axes): the operand's element plus the sum
    of entry `(h, k)` of the update rows `e` whose row number, read signed, is `n`. A row number outside `[0, N)`
    contributes nowhere. -/
theorem scatterAdd_rows3 (huw : d.updateWindowDims = [1, 2]) (hiw : d.insertedWindowDims = [0])
    (hsd : d.scatterDimsToOperandDims = [0]) (hivd : d.indexVectorDim = 1)
    (x : (⟨3, ![N, H, K]⟩ : Shape).Idx → EReal) (idx : IVec ⟨2, ![E, 1]⟩ w)
    (upd : (⟨3, ![E, H, K]⟩ : Shape).Idx → EReal) (n : Fin N) (h : Fin H) (k : Fin K) :
    Ideal.hostScatterAdd d x idx upd (ix3 n h k) = x (ix3 n h k)
      + ∑ e ∈ Finset.univ.filter (fun e : Fin E => (idx (ix2 e (0 : Fin 1))).toInt = (n.val : Int)), upd (ix3 e h k) := by
  unfold Ideal.hostScatterAdd
  congr 1
  refine Finset.sum_bij' (fun j _ => (j 0 : Fin E)) (fun e _ => ix3 e h k) ?_ ?_ ?_ ?_ ?_
  · intro j hj
    obtain ⟨e, h', k', rfl⟩ : ∃ (e : Fin E) (h' : Fin H) (k' : Fin K), j = ix3 e h' k' := ⟨j 0, j 1, j 2, eq_ix3 j⟩
    exact Finset.mem_filter.2 ⟨Finset.mem_univ _,
      ((sc3_resultIdx d huw hiw hsd hivd idx e h' k' n h k).1 (Finset.mem_filter.1 hj).2).1⟩
  · intro e he
    exact Finset.mem_filter.2 ⟨Finset.mem_univ _,
      (sc3_resultIdx d huw hiw hsd hivd idx e h k n h k).2 ⟨(Finset.mem_filter.1 he).2, rfl, rfl⟩⟩
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl
  · intro e _
    rfl
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl

end Scatter3

/-! ## The row gather from a matrix: `[N, C]` operand, `[E, 1]` row numbers, `[E, C]` result -/

section Gather2
variable {N C E w : Nat} (d : GatherDims ⟨2, ![N, C]⟩ ⟨2, ![E, 1]⟩ ⟨2, ![E, C]⟩)

/-- On the row axis the slice of result `(e, c)` starts at row number `e`'s entry, read signed and clamped into
    `[0, N - 1]`. -/
theorem g2_start0 (hoff : d.offsetDims = [1]) (hcoll : d.collapsedSliceDims = [0])
    (hsim : d.startIndexMap = [0]) (hivd : d.indexVectorDim = 1)
    (idx : IVec ⟨2, ![E, 1]⟩ w) (j : (⟨2, ![E, C]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On the column axis, which the start index map does not name, the slice starts at 0. -/
theorem g2_start1 (hsim : d.startIndexMap = [0]) (idx : IVec ⟨2, ![E, 1]⟩ w) (j : (⟨2, ![E, C]⟩ : Shape).Idx) :
    d.start j idx 1 = 0 := by
  unfold GatherDims.start
  rw [dif_neg (by rw [hsim]; exact fin2_one_nmem)]

/-- The row axis is collapsed: its offset coordinate is 0. -/
theorem g2_off0 (hcoll : d.collapsedSliceDims = [0]) (j : (⟨2, ![E, C]⟩ : Shape).Idx) :
    d.offCoord j 0 = 0 :=
  d.offCoord_eq_zero j 0 fun h => ((d.mem_sKept 0).1 h).1 (by rw [hcoll]; exact List.mem_singleton.mpr rfl)

/-- The column axis takes the result's column. -/
theorem g2_off1 (hoff : d.offsetDims = [1]) (hcoll : d.collapsedSliceDims = [0]) (hob : d.operandBatchingDims = [])
    (j : (⟨2, ![E, C]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin2_one_nmem, List.not_mem_nil⟩)]
  rfl

end Gather2

/-- THE ROW GATHER READ AT `(e, c)` (`x[i]` of a matrix: the operand's axis 0 collapsed and indexed by the `[E, 1]` column
    of row numbers, its axis 1 an offset axis): column `c` of the operand's row whose number is entry `e` of the column,
    read signed and clamped into `[0, N - 1]`. -/
theorem gather_rows2 {α : Type} {N C E w : Nat} (hN : 0 < N) (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  have hb : ∀ a, d.batchCoord (ix2 e c) a = 0 := fun a =>
    d.batchCoord_eq_zero _ a (by rw [hob]; exact List.not_mem_nil)
  unfold Host.gather
  congr 1
  funext a
  refine Fin.ext ?_
  match a with
  | ⟨0, _⟩ =>
    show d.start (ix2 e c) idx 0 + d.batchCoord (ix2 e c) 0 + d.offCoord (ix2 e c) 0 = _
    rw [hb, g2_off0 d hcoll, g2_start0 d hoff hcoll hsim hivd]
    rfl
  | ⟨1, _⟩ =>
    show d.start (ix2 e c) idx 1 + d.batchCoord (ix2 e c) 1 + d.offCoord (ix2 e c) 1 = _
    rw [hb, g2_off1 d hoff hcoll hob, g2_start1 d hsim]
    show 0 + 0 + c.val = c.val
    omega

/-! ## The row gather from a rank-3 array: `[N, H, K]` operand, `[E, 1]` row numbers, `[E, H, K]` result -/

section Gather3
variable {N H K E w : Nat} (d : GatherDims ⟨3, ![N, H, K]⟩ ⟨2, ![E, 1]⟩ ⟨3, ![E, H, K]⟩)

/-- On the row axis the slice of result `(e, h, k)` starts at row number `e`'s entry, read signed and clamped into
    `[0, N - 1]`. -/
theorem g3_start0 (hoff : d.offsetDims = [1, 2]) (hcoll : d.collapsedSliceDims = [0])
    (hsim : d.startIndexMap = [0]) (hivd : d.indexVectorDim = 1)
    (idx : IVec ⟨2, ![E, 1]⟩ w) (j : (⟨3, ![E, H, K]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On axis 1, which the start index map does not name, the slice starts at 0. -/
theorem g3_start1 (hsim : d.startIndexMap = [0]) (idx : IVec ⟨2, ![E, 1]⟩ w) (j : (⟨3, ![E, H, K]⟩ : Shape).Idx) :
    d.start j idx 1 = 0 := by
  unfold GatherDims.start
  rw [dif_neg (by rw [hsim]; exact fin3_one_nmem)]

/-- On axis 2, which the start index map does not name, the slice starts at 0. -/
theorem g3_start2 (hsim : d.startIndexMap = [0]) (idx : IVec ⟨2, ![E, 1]⟩ w) (j : (⟨3, ![E, H, K]⟩ : Shape).Idx) :
    d.start j idx 2 = 0 := by
  unfold GatherDims.start
  rw [dif_neg (by rw [hsim]; exact fin3_two_nmem)]

/-- The row axis is collapsed: its offset coordinate is 0. -/
theorem g3_off0 (hcoll : d.collapsedSliceDims = [0]) (j : (⟨3, ![E, H, K]⟩ : Shape).Idx) :
    d.offCoord j 0 = 0 :=
  d.offCoord_eq_zero j 0 fun h => ((d.mem_sKept 0).1 h).1 (by rw [hcoll]; exact List.mem_singleton.mpr rfl)

/-- Axis 1 takes the result's coordinate on its axis 1. -/
theorem g3_off1 (hoff : d.offsetDims = [1, 2]) (hcoll : d.collapsedSliceDims = [0]) (hob : d.operandBatchingDims = [])
    (j : (⟨3, ![E, H, K]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin3_one_nmem, List.not_mem_nil⟩)]
  rfl

/-- Axis 2 takes the result's coordinate on its axis 2. -/
theorem g3_off2 (hoff : d.offsetDims = [1, 2]) (hcoll : d.collapsedSliceDims = [0]) (hob : d.operandBatchingDims = [])
    (j : (⟨3, ![E, H, K]⟩ : Shape).Idx) :
    d.offCoord j 2 = (j 2).val := by
  obtain ⟨od, cd, ob, sb, sm, ivd, ss, wf⟩ := d
  simp only at hoff hcoll hob
  subst hoff hcoll hob
  unfold GatherDims.offCoord
  rw [dif_pos (by rw [GatherDims.mem_sKept]; exact ⟨fin3_two_nmem, List.not_mem_nil⟩)]
  rfl

end Gather3

/-- THE ROW GATHER READ AT `(e, h, k)` (`x[i]` of a rank-3 array: the operand's axis 0 collapsed and indexed by the
    `[E, 1]` column of row numbers, its axes 1 and 2 offset axes): entry `(h, k)` of the operand's row whose number is entry
    `e` of the column, read signed and clamped into `[0, N - 1]`. -/
theorem gather_rows3 {α : Type} {N H K E w : Nat} (hN : 0 < N)
    (d : GatherDims ⟨3, ![N, H, K]⟩ ⟨2, ![E, 1]⟩ ⟨3, ![E, H, K]⟩)
    (hoff : d.offsetDims = [1, 2]) (hcoll : d.collapsedSliceDims = [0])
    (hob : d.operandBatchingDims = []) (hsim : d.startIndexMap = [0]) (hivd : d.indexVectorDim = 1)
    (x : (⟨3, ![N, H, K]⟩ : Shape).Idx → α) (idx : IVec ⟨2, ![E, 1]⟩ w) (e : Fin E) (h : Fin H) (k : Fin K) :
    Host.gather d x idx (ix3 e h k)
      = x (ix3 ⟨min (idx (ix2 e (0 : Fin 1))).toInt.toNat (N - 1), by omega⟩ h k) := by
  have hb : ∀ a, d.batchCoord (ix3 e h k) a = 0 := fun a =>
    d.batchCoord_eq_zero _ a (by rw [hob]; exact List.not_mem_nil)
  unfold Host.gather
  congr 1
  funext a
  refine Fin.ext ?_
  match a with
  | ⟨0, _⟩ =>
    show d.start (ix3 e h k) idx 0 + d.batchCoord (ix3 e h k) 0 + d.offCoord (ix3 e h k) 0 = _
    rw [hb, g3_off0 d hcoll, g3_start0 d hoff hcoll hsim hivd]
    rfl
  | ⟨1, _⟩ =>
    show d.start (ix3 e h k) idx 1 + d.batchCoord (ix3 e h k) 1 + d.offCoord (ix3 e h k) 1 = _
    rw [hb, g3_off1 d hoff hcoll hob, g3_start1 d hsim]
    show 0 + 0 + h.val = h.val
    omega
  | ⟨2, _⟩ =>
    show d.start (ix3 e h k) idx 2 + d.batchCoord (ix3 e h k) 2 + d.offCoord (ix3 e h k) 2 = _
    rw [hb, g3_off2 d hoff hcoll hob, g3_start2 d hsim]
    show 0 + 0 + k.val = k.val
    omega

end Cert.LibRows

end
-- ==== Proof.LibMid.lean ====
/-
  A scatter-add along the MIDDLE axis of a rank-3 array, read at an index.

  `out.at[:, i, :].add(u)` is a scatter with an add body whose `[E, 1]` column of numbers indexes the operand's axis 1: that
  axis is inserted and indexed, axes 0 and 2 are the updates' window axes. At the extended reals the result at
  `(t, n, k)` is the operand's element plus the sum of the update entries `(t, e, k)` over the `e` whose number, read
  signed and not clamped, is `n`; a number outside `[0, N)` lands nowhere and contributes nothing.
-/
import Idealize.ShloMosaic.PureOps.Ideal
import Idealize.ShloMosaic.PureOps.ShapeOps
import Idealize.ShloMosaic.PureOps.Contract
import Idealize.ShloMosaic.Lib.ValueIdx
import proofs.«114761_j88725434400964_1_alg».proof.Proof.LibRows

noncomputable section

open scoped BigOperators

namespace Cert.LibMid

open Idealize.ShloMosaic Idealize.ShloMosaic.ValueIdx

/-- Axis 0 of three is not axis 1. -/
theorem fin3_zero_nmem_one : (0 : Fin 3) ∉ ([1] : List (Fin 3)) := by decide
/-- Axis 2 of three is not axis 1. -/
theorem fin3_two_nmem_one : (2 : Fin 3) ∉ ([1] : List (Fin 3)) := by decide

section Scatter3Mid
variable {T N K E w : Nat} (d : ScatterDims ⟨3, ![T, N, K]⟩ ⟨2, ![E, 1]⟩ ⟨3, ![T, E, K]⟩)

/-- On the middle axis the window of update `(t, e, k)` starts at position `e`'s number, read signed. -/
theorem mid_start1 (huw : d.updateWindowDims = [0, 2]) (hsd : d.scatterDimsToOperandDims = [1])
    (hivd : d.indexVectorDim = 1) (idx : IVec ⟨2, ![E, 1]⟩ w) (j : (⟨3, ![T, E, K]⟩ : Shape).Idx) :
    d.start j idx 1 = (idx (ix2 (j 1) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On axis 0, which the map does not name, the window starts at 0. -/
theorem mid_start0 (hsd : d.scatterDimsToOperandDims = [1])
    (idx : IVec ⟨2, ![E, 1]⟩ w) (j : (⟨3, ![T, E, K]⟩ : Shape).Idx) :
    d.start j idx 0 = 0 := by
  unfold ScatterDims.start
  rw [dif_neg (by rw [hsd]; exact fin3_zero_nmem_one)]

/-- On axis 2, which the map does not name, the window starts at 0. -/
theorem mid_start2 (hsd : d.scatterDimsToOperandDims = [1])
    (idx : IVec ⟨2, ![E, 1]⟩ w) (j : (⟨3, ![T, E, K]⟩ : Shape).Idx) :
    d.start j idx 2 = 0 := by
  unfold ScatterDims.start
  rw [dif_neg (by rw [hsd]; exact fin3_two_nmem_one)]

/-- The middle axis is inserted: its window coordinate is 0. -/
theorem mid_window1 (hiw : d.insertedWindowDims = [1]) (j : (⟨3, ![T, E, K]⟩ : Shape).Idx) :
    d.window j 1 = 0 := by
  unfold ScatterDims.window
  rw [dif_neg (by rw [ScatterDims.sKept, Cert.LibRows.mem_kept, hiw]; exact fun h => h (List.mem_singleton.mpr rfl))]

/-- Axis 0 is the first kept axis: it takes the update's coordinate on its axis 0. -/
theorem mid_window0 (huw : d.updateWindowDims = [0, 2]) (hiw : d.insertedWindowDims = [1])
    (j : (⟨3, ![T, E, K]⟩ : Shape).Idx) :
    d.window j 0 = (j 0).val := by
  obtain ⟨uw, iw, sd, ivd, wf⟩ := d
  simp only at huw hiw
  subst huw hiw
  unfold ScatterDims.window
  rw [dif_pos (by rw [ScatterDims.sKept, Cert.LibRows.mem_kept]; exact fin3_zero_nmem_one)]
  rfl

/-- Axis 2 is the second kept axis: it takes the update's coordinate on its axis 2. -/
theorem mid_window2 (huw : d.updateWindowDims = [0, 2]) (hiw : d.insertedWindowDims = [1])
    (j : (⟨3, ![T, E, K]⟩ : Shape).Idx) :
    d.window j 2 = (j 2).val := by
  obtain ⟨uw, iw, sd, ivd, wf⟩ := d
  simp only at huw hiw
  subst huw hiw
  unfold ScatterDims.window
  rw [dif_pos (by rw [ScatterDims.sKept, Cert.LibRows.mem_kept]; exact fin3_two_nmem_one)]
  rfl

/-- Update `(t, e, k)` lands at `(t', n, k')` exactly when position `e`'s number, read signed, is `n` and the outer
    two coordinates agree; a number outside `[0, N)` lands nowhere. -/
theorem mid_resultIdx (huw : d.updateWindowDims = [0, 2]) (hiw : d.insertedWindowDims = [1])
    (hsd : d.scatterDimsToOperandDims = [1]) (hivd : d.indexVectorDim = 1)
    (idx : IVec ⟨2, ![E, 1]⟩ w) (t : Fin T) (e : Fin E) (k : Fin K) (t' : Fin T) (n : Fin N) (k' : Fin K) :
    d.resultIdx? (ix3 t e k) idx = some (ix3 t' n k')
      ↔ (idx (ix2 e (0 : Fin 1))).toInt = (n.val : Int) ∧ t = t' ∧ k = k' := by
  have hs0 : d.start (ix3 t e k) idx 0 = 0 := mid_start0 d hsd idx _
  have hs1 : d.start (ix3 t e k) idx 1 = (idx (ix2 e (0 : Fin 1))).toInt := mid_start1 d huw hsd hivd idx _
  have hs2 : d.start (ix3 t e k) idx 2 = 0 := mid_start2 d hsd idx _
  have hw0 : d.window (ix3 t e k) 0 = t.val := mid_window0 d huw hiw _
  have hw1 : d.window (ix3 t e k) 1 = 0 := mid_window1 d hiw _
  have hw2 : d.window (ix3 t e k) 2 = k.val := mid_window2 d huw hiw _
  generalize (idx (ix2 e (0 : Fin 1))).toInt = z at hs1 ⊢
  have hn := n.isLt
  have ht := t.isLt
  have hk := k.isLt
  unfold ScatterDims.resultIdx?
  split
  · next hin =>
    rw [Option.some.injEq]
    constructor
    · intro hf
      have h0 : (d.start (ix3 t e k) idx 0 + (d.window (ix3 t e k) 0 : Int)).toNat = t'.val :=
        congrArg (fun f : (⟨3, ![T, N, K]⟩ : Shape).Idx => (f 0).val) hf
      have h1 : (d.start (ix3 t e k) idx 1 + (d.window (ix3 t e k) 1 : Int)).toNat = n.val :=
        congrArg (fun f : (⟨3, ![T, N, K]⟩ : Shape).Idx => (f 1).val) hf
      have h2 : (d.start (ix3 t e k) idx 2 + (d.window (ix3 t e k) 2 : Int)).toNat = k'.val :=
        congrArg (fun f : (⟨3, ![T, N, K]⟩ : Shape).Idx => (f 2).val) hf
      have h11 := (hin 1).1
      rw [hs0, hw0] at h0
      rw [hs1, hw1] at h1 h11
      rw [hs2, hw2] at h2
      exact ⟨by omega, Fin.ext (by omega), Fin.ext (by omega)⟩
    · rintro ⟨hz, rfl, rfl⟩
      funext a
      match a with
      | ⟨0, _⟩ =>
        refine Fin.ext ?_
        show (d.start (ix3 t e k) idx 0 + (d.window (ix3 t e k) 0 : Int)).toNat = t.val
        rw [hs0, hw0]; omega
      | ⟨1, _⟩ =>
        refine Fin.ext ?_
        show (d.start (ix3 t e k) idx 1 + (d.window (ix3 t e k) 1 : Int)).toNat = n.val
        rw [hs1, hw1]; omega
      | ⟨2, _⟩ =>
        refine Fin.ext ?_
        show (d.start (ix3 t e k) idx 2 + (d.window (ix3 t e k) 2 : Int)).toNat = k.val
        rw [hs2, hw2]; omega
  · next hin =>
    constructor
    · intro hf; cases hf
    · rintro ⟨hz, rfl, rfl⟩
      refine absurd ?_ hin
      intro a
      match a with
      | ⟨0, _⟩ =>
        show 0 ≤ d.start (ix3 t e k) idx 0 + (d.window (ix3 t e k) 0 : Int)
          ∧ d.start (ix3 t e k) idx 0 + (d.window (ix3 t e k) 0 : Int) < (T : Int)
        rw [hs0, hw0]; omega
      | ⟨1, _⟩ =>
        show 0 ≤ d.start (ix3 t e k) idx 1 + (d.window (ix3 t e k) 1 : Int)
          ∧ d.start (ix3 t e k) idx 1 + (d.window (ix3 t e k) 1 : Int) < (N : Int)
        rw [hs1, hw1]; omega
      | ⟨2, _⟩ =>
        show 0 ≤ d.start (ix3 t e k) idx 2 + (d.window (ix3 t e k) 2 : Int)
          ∧ d.start (ix3 t e k) idx 2 + (d.window (ix3 t e k) 2 : Int) < (K : Int)
        rw [hs2, hw2]; omega

/-- THE MIDDLE-AXIS SCATTER-ADD READ AT `(t, n, k)`: the operand's element plus the sum of entry `(t, ·, k)` of the updates
    over the positions `e` whose number, read signed, is `n`. -/
theorem scatterAdd_mid3 (huw : d.updateWindowDims = [0, 2]) (hiw : d.insertedWindowDims = [1])
    (hsd : d.scatterDimsToOperandDims = [1]) (hivd : d.indexVectorDim = 1)
    (x : (⟨3, ![T, N, K]⟩ : Shape).Idx → EReal) (idx : IVec ⟨2, ![E, 1]⟩ w)
    (upd : (⟨3, ![T, E, K]⟩ : Shape).Idx → EReal) (t : Fin T) (n : Fin N) (k : Fin K) :
    Ideal.hostScatterAdd d x idx upd (ix3 t n k) = x (ix3 t n k)
      + ∑ e ∈ Finset.univ.filter (fun e : Fin E => (idx (ix2 e (0 : Fin 1))).toInt = (n.val : Int)), upd (ix3 t e k) := by
  unfold Ideal.hostScatterAdd
  congr 1
  refine Finset.sum_bij' (fun j _ => (j 1 : Fin E)) (fun e _ => ix3 t e k) ?_ ?_ ?_ ?_ ?_
  · intro j hj
    obtain ⟨t', e, k', rfl⟩ : ∃ (t' : Fin T) (e : Fin E) (k' : Fin K), j = ix3 t' e k' := ⟨j 0, j 1, j 2, eq_ix3 j⟩
    exact Finset.mem_filter.2 ⟨Finset.mem_univ _,
      ((mid_resultIdx d huw hiw hsd hivd idx t' e k' t n k).1 (Finset.mem_filter.1 hj).2).1⟩
  · intro e he
    exact Finset.mem_filter.2 ⟨Finset.mem_univ _,
      (mid_resultIdx d huw hiw hsd hivd idx t e k t n k).2 ⟨(Finset.mem_filter.1 he).2, rfl, rfl⟩⟩
  · intro j hj
    obtain ⟨t', e, k', rfl⟩ : ∃ (t' : Fin T) (e : Fin E) (k' : Fin K), j = ix3 t' e k' := ⟨j 0, j 1, j 2, eq_ix3 j⟩
    obtain ⟨-, rfl, rfl⟩ := (mid_resultIdx d huw hiw hsd hivd idx t' e k' t n k).1 (Finset.mem_filter.1 hj).2
    rfl
  · intro e _
    rfl
  · intro j hj
    obtain ⟨t', e, k', rfl⟩ : ∃ (t' : Fin T) (e : Fin E) (k' : Fin K), j = ix3 t' e k' := ⟨j 0, j 1, j 2, eq_ix3 j⟩
    obtain ⟨-, rfl, rfl⟩ := (mid_resultIdx d huw hiw hsd hivd idx t' e k' t n k).1 (Finset.mem_filter.1 hj).2
    rfl

end Scatter3Mid

end Cert.LibMid

end
-- ==== Proof.LawsMM.lean ====
/-
  A projection region against the reference's contraction.

  The kernel keeps its activations as a matrix of `16 · 10000` rows and the reference as a rank-3 array `[16, 10000, ·]`: the
  same numbers in the same row-major order, row `10000 t + n` being `(t, n)`. Entry `(10000 t + n, g)` of the region's value on
  the rows of `X` is the sum over `k` of `X (t, n, k) * W (k, g)`, which is entry `(t, n, g)` of the reference's contraction of
  `X`'s last axis with `W`'s first.
-/
import proofs.«114761_j88725434400964_1_alg».proof.Proof.KTerm
import proofs.«114761_j88725434400964_1_alg».proof.Proof.RTerm
import proofs.«114761_j88725434400964_1_alg».proof.Proof.LibRows
import proofs.«114761_j88725434400964_1_alg».proof.Proof.LibMid
import proofs.«114761_j88725434400964_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LawsMM

open Idealize.ShloMosaic Idealize.ShloMosaic.ValueIdx
open Cert.KernelIdeal.Facts₀ Cert.KernelIdeal.Facts

/-- Reading the matrix of rows: row `r`, column `k` of the reshaped array is entry `(r / 10000, r % 10000, k)`. -/
theorem rows_apply {K : Nat} (X : (⟨3, ![16, 10000, K]⟩ : Shape).Idx → EReal)
    (h : (⟨3, ![16, 10000, K]⟩ : Shape).ShapeCasts (⟨2, ![160000, K]⟩ : Shape)) (r : Fin 160000) (k : Fin K) :
    shapeCast (⟨2, ![160000, K]⟩ : Shape) X h (ix2 r k)
      = X (ix3 (⟨r.val / 10000, by omega⟩ : Fin 16) (⟨r.val % 10000, by omega⟩ : Fin 10000) k) := by
  refine shapeCast_apply X h _ _ ?_
  rw [Shape.rowMajor_val_two, Shape.rowMajor_val_three]
  show ((r.val / 10000) * 10000 + r.val % 10000) * K + k.val = r.val * K + k.val
  have : (r.val / 10000) * 10000 + r.val % 10000 = r.val := by omega
  rw [this]

/-- The first contraction read at `(t, n, g)`: the sum over `k` of `X (t, n, k) * W (k, g)`. -/
theorem dot32x64_apply (X : Cert.ReferenceIdeal.S16x10000x32.Idx → EReal) (W : Cert.ReferenceIdeal.S32x64.Idx → EReal)
    (t : Fin 16) (n : Fin 10000) (g : Fin 64) :
    Host.dotGeneral (F := Ideal) (φ₁ := .f32) (φ₂ := .f32) Cert.ReferenceIdeal.dot_S16x10000x32_S32x64_S16x10000x64_2_0_01_1_n_n none X W (ix3 t n g)
      = ∑ k : Fin 32, X (ix3 t n k) * W (ix2 k g) := by
  simp only [Host.dotGeneral]
  rw [Ideal.dotGeneral_apply, ← Equiv.sum_comp (ValueIdx.contrEquiv1 Cert.ReferenceIdeal.dot_S16x10000x32_S32x64_S16x10000x64_2_0_01_1_n_n 32 rfl rfl).symm]
  refine Finset.sum_congr rfl fun k _ => ?_
  have hk := ValueIdx.contrEquiv1_symm_val Cert.ReferenceIdeal.dot_S16x10000x32_S32x64_S16x10000x64_2_0_01_1_n_n 32 rfl rfl k
  have el : (Cert.ReferenceIdeal.dot_S16x10000x32_S32x64_S16x10000x64_2_0_01_1_n_n).lhsIdx (ix3 t n g) ((ValueIdx.contrEquiv1 Cert.ReferenceIdeal.dot_S16x10000x32_S32x64_S16x10000x64_2_0_01_1_n_n 32 rfl rfl).symm k) = ix3 t n k :=
    funext fun a => Fin.ext (by
      match a with
      | ⟨0, _⟩ => exact Cert.ReferenceIdeal.Read.lhs_main_v35_0 _ _
      | ⟨1, _⟩ => exact Cert.ReferenceIdeal.Read.lhs_main_v35_1 _ _
      | ⟨2, _⟩ => exact (Cert.ReferenceIdeal.Read.lhs_main_v35_2 _ _).trans hk)
  have er : (Cert.ReferenceIdeal.dot_S16x10000x32_S32x64_S16x10000x64_2_0_01_1_n_n).rhsIdx (ix3 t n g) ((ValueIdx.contrEquiv1 Cert.ReferenceIdeal.dot_S16x10000x32_S32x64_S16x10000x64_2_0_01_1_n_n 32 rfl rfl).symm k) = ix2 k g :=
    funext fun a => Fin.ext (by
      match a with
      | ⟨0, _⟩ => exact (Cert.ReferenceIdeal.Read.rhs_main_v35_0 _ _).trans hk
      | ⟨1, _⟩ => exact Cert.ReferenceIdeal.Read.rhs_main_v35_1 _ _)
  rw [el, er]

/-- The first projection: the region's value on the rows of `X` is the rows of the reference's contraction of `X`. -/
theorem mm_rows64 (X : Cert.ReferenceIdeal.S16x10000x32.Idx → EReal) (W : Cert.ReferenceIdeal.S32x64.Idx → EReal) :
    Cert.Spec.mm (R := 160000) (K := 32) (C := 64)
        (shapeCast Cert.KernelIdeal.S160000x32 X shapeCasts_S16x10000x32_S160000x32) W
      = shapeCast Cert.KernelIdeal.S160000x64
          (Host.dotGeneral (F := Ideal) (φ₁ := .f32) (φ₂ := .f32)
            Cert.ReferenceIdeal.dot_S16x10000x32_S32x64_S16x10000x64_2_0_01_1_n_n none X W)
          shapeCasts_S16x10000x64_S160000x64 := by
  funext j
  obtain ⟨r, g, rfl⟩ : ∃ (r : Fin 160000) (g : Fin 64), j = ix2 r g := ⟨j 0, j 1, eq_ix2 j⟩
  show _ = shapeCast (⟨2, ![160000, 64]⟩ : Shape) (Host.dotGeneral (F := Ideal) (φ₁ := .f32) (φ₂ := .f32)
            Cert.ReferenceIdeal.dot_S16x10000x32_S32x64_S16x10000x64_2_0_01_1_n_n none X W) _ (ix2 r g)
  rw [rows_apply, dot32x64_apply]
  show ∑ k : Fin 32, shapeCast (⟨2, ![160000, 32]⟩ : Shape) X _ (ix2 r k) * W (ix2 k g) = _
  refine Finset.sum_congr rfl fun k _ => ?_
  rw [rows_apply]

/-- The second contraction read at `(t, n, g)`: the sum over `k` of `H (t, n, k) * W (k, g)`. -/
theorem dot64x32_apply (H : Cert.ReferenceIdeal.S16x10000x64.Idx → EReal) (W : Cert.ReferenceIdeal.S64x32.Idx → EReal)
    (t : Fin 16) (n : Fin 10000) (g : Fin 32) :
    Host.dotGeneral (F := Ideal) (φ₁ := .f32) (φ₂ := .f32) Cert.ReferenceIdeal.dot_S16x10000x64_S64x32_S16x10000x32_2_0_01_1_n_n none H W (ix3 t n g)
      = ∑ k : Fin 64, H (ix3 t n k) * W (ix2 k g) := by
  simp only [Host.dotGeneral]
  rw [Ideal.dotGeneral_apply, ← Equiv.sum_comp (ValueIdx.contrEquiv1 Cert.ReferenceIdeal.dot_S16x10000x64_S64x32_S16x10000x32_2_0_01_1_n_n 64 rfl rfl).symm]
  refine Finset.sum_congr rfl fun k _ => ?_
  have hk := ValueIdx.contrEquiv1_symm_val Cert.ReferenceIdeal.dot_S16x10000x64_S64x32_S16x10000x32_2_0_01_1_n_n 64 rfl rfl k
  have el : (Cert.ReferenceIdeal.dot_S16x10000x64_S64x32_S16x10000x32_2_0_01_1_n_n).lhsIdx (ix3 t n g) ((ValueIdx.contrEquiv1 Cert.ReferenceIdeal.dot_S16x10000x64_S64x32_S16x10000x32_2_0_01_1_n_n 64 rfl rfl).symm k) = ix3 t n k :=
    funext fun a => Fin.ext (by
      match a with
      | ⟨0, _⟩ => exact Cert.ReferenceIdeal.Read.lhs_main_v58_0 _ _
      | ⟨1, _⟩ => exact Cert.ReferenceIdeal.Read.lhs_main_v58_1 _ _
      | ⟨2, _⟩ => exact (Cert.ReferenceIdeal.Read.lhs_main_v58_2 _ _).trans hk)
  have er : (Cert.ReferenceIdeal.dot_S16x10000x64_S64x32_S16x10000x32_2_0_01_1_n_n).rhsIdx (ix3 t n g) ((ValueIdx.contrEquiv1 Cert.ReferenceIdeal.dot_S16x10000x64_S64x32_S16x10000x32_2_0_01_1_n_n 64 rfl rfl).symm k) = ix2 k g :=
    funext fun a => Fin.ext (by
      match a with
      | ⟨0, _⟩ => exact (Cert.ReferenceIdeal.Read.rhs_main_v58_0 _ _).trans hk
      | ⟨1, _⟩ => exact Cert.ReferenceIdeal.Read.rhs_main_v58_1 _ _)
  rw [el, er]

/-- The second projection. -/
theorem mm_rows32 (H : Cert.ReferenceIdeal.S16x10000x64.Idx → EReal) (W : Cert.ReferenceIdeal.S64x32.Idx → EReal) :
    Cert.Spec.mm (R := 160000) (K := 64) (C := 32)
        (shapeCast Cert.KernelIdeal.S160000x64 H shapeCasts_S16x10000x64_S160000x64) W
      = shapeCast Cert.KernelIdeal.S160000x32
          (Host.dotGeneral (F := Ideal) (φ₁ := .f32) (φ₂ := .f32)
            Cert.ReferenceIdeal.dot_S16x10000x64_S64x32_S16x10000x32_2_0_01_1_n_n none H W)
          shapeCasts_S16x10000x32_S160000x32 := by
  funext j
  obtain ⟨r, g, rfl⟩ : ∃ (r : Fin 160000) (g : Fin 32), j = ix2 r g := ⟨j 0, j 1, eq_ix2 j⟩
  show _ = shapeCast (⟨2, ![160000, 32]⟩ : Shape) (Host.dotGeneral (F := Ideal) (φ₁ := .f32) (φ₂ := .f32)
            Cert.ReferenceIdeal.dot_S16x10000x64_S64x32_S16x10000x32_2_0_01_1_n_n none H W) _ (ix2 r g)
  rw [rows_apply, dot64x32_apply]
  show ∑ k : Fin 64, shapeCast (⟨2, ![160000, 64]⟩ : Shape) H _ (ix2 r k) * W (ix2 k g) = _
  refine Finset.sum_congr rfl fun k _ => ?_
  rw [rows_apply]

end Cert.LawsMM

end
-- ==== Proof.LawsBias.lean ====
/-
  A bias region against the reference's broadcast sum.

  Row `10000 t + n` of the kernel's matrix is `(t, n)` of the reference's rank-3 array. Entry `(10000 t + n, g)` of the region's
  value on the rows of `Y` is `Y (t, n, g) + b g` (clipped at zero from below in the first region), and the reference adds
  the bias spread over time steps and nodes, then takes the maximum with an all-zero array.
-/
import proofs.«114761_j88725434400964_1_alg».proof.Proof.KTerm
import proofs.«114761_j88725434400964_1_alg».proof.Proof.RTerm
import proofs.«114761_j88725434400964_1_alg».proof.Proof.LibRows
import proofs.«114761_j88725434400964_1_alg».proof.Proof.LibMid
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LawsBias

open Idealize.ShloMosaic Idealize.ShloMosaic.ValueIdx
open Cert.KernelIdeal.Facts₀ Cert.KernelIdeal.Facts

/-- A `[T, N, C]` array cast to `[R, C]`, read at row `N t + n` and column `g`, is the array at `(t, n, g)`. -/
theorem shapeCast_rows_apply {T N C R : Nat} {α : Type} (X : (⟨3, ![T, N, C]⟩ : Shape).Idx → α)
    (h : (⟨3, ![T, N, C]⟩ : Shape).ShapeCasts ⟨2, ![R, C]⟩) (t : Fin T) (n : Fin N) (g : Fin C) (r : Fin R)
    (hr : r.val = t.val * N + n.val) :
    shapeCast ⟨2, ![R, C]⟩ X h (ix2 r g) = X (ix3 t n g) :=
  shapeCast_apply X h _ _ (by
    rw [Shape.rowMajor_val_three, Shape.rowMajor_val_two]
    show (t.val * N + n.val) * C + g.val = r.val * C + g.val
    rw [hr])

/-- The bias over 64 features spread over time steps and nodes, read at `(t, n, g)`, is the bias at `g`. -/
theorem bias64_apply (b : Cert.ReferenceIdeal.S64.Idx → EReal) (t : Fin 16) (n : Fin 10000) (g : Fin 64) :
    Cert.ReferenceIdeal.Term.bias64 b (ix3 t n g) = b (ix1 g) := by
  unfold Cert.ReferenceIdeal.Term.bias64
  rw [broadcastInDim_apply _ _ _ (ix3 t n g) (ix3 (0 : Fin 1) (0 : Fin 1) g)
    (by intro a; match a with | ⟨0, _⟩ => rfl | ⟨1, _⟩ => rfl | ⟨2, _⟩ => rfl)]
  rw [broadcastInDim_apply _ _ _ (ix3 (0 : Fin 1) (0 : Fin 1) g) (ix1 g)
    (by intro a; match a with | ⟨0, _⟩ => rfl)]

/-- The bias over 32 features spread over time steps and nodes, read at `(t, n, g)`, is the bias at `g`. -/
theorem bias32_apply (b : Cert.ReferenceIdeal.S32.Idx → EReal) (t : Fin 16) (n : Fin 10000) (g : Fin 32) :
    Cert.ReferenceIdeal.Term.bias32 b (ix3 t n g) = b (ix1 g) := by
  unfold Cert.ReferenceIdeal.Term.bias32
  rw [broadcastInDim_apply _ _ _ (ix3 t n g) (ix3 (0 : Fin 1) (0 : Fin 1) g)
    (by intro a; match a with | ⟨0, _⟩ => rfl | ⟨1, _⟩ => rfl | ⟨2, _⟩ => rfl)]
  rw [broadcastInDim_apply _ _ _ (ix3 (0 : Fin 1) (0 : Fin 1) g) (ix1 g)
    (by intro a; match a with | ⟨0, _⟩ => rfl)]

/-- The all-zero array over 64 features is `0` at every index. -/
theorem zero64_apply (j : Cert.ReferenceIdeal.S16x10000x64.Idx) : Cert.ReferenceIdeal.Term.zero64 j = 0 := by
  unfold Cert.ReferenceIdeal.Term.zero64
  rw [broadcastInDim_apply _ _ _ j ix0 (fun a => a.elim0), constant_apply, Ideal.ofBits_zero_f32]

/-- A row number below `16 * 10000` is `10000 t + n` for its quotient `t` and remainder `n` by `10000`. -/
theorem row_split (r : Fin 160000) :
    ∃ (t : Fin 16) (n : Fin 10000), r.val = t.val * 10000 + n.val := by
  have hr := r.isLt
  exact ⟨⟨r.val / 10000, by omega⟩, ⟨r.val % 10000, by omega⟩, by show r.val = r.val / 10000 * 10000 + r.val % 10000; omega⟩

/-- The first bias region on the rows of `Y` is the rows of the reference's sum with the spread bias, clipped at zero. -/
theorem biasRelu_rows (Y : Cert.ReferenceIdeal.S16x10000x64.Idx → EReal) (b : Cert.ReferenceIdeal.S64.Idx → EReal) :
    Cert.Spec.biasRelu (R := 160000) (C := 64)
        (shapeCast Cert.KernelIdeal.S160000x64 Y shapeCasts_S16x10000x64_S160000x64)
        (shapeCast Cert.KernelIdeal.S1x64 b shapeCasts_S64_S1x64)
      = shapeCast Cert.KernelIdeal.S160000x64
          (maximumf (F := Ideal) (φ := .f32) (addf (F := Ideal) (φ := .f32) Y (Cert.ReferenceIdeal.Term.bias64 b))
            Cert.ReferenceIdeal.Term.zero64)
          shapeCasts_S16x10000x64_S160000x64 := by
  funext j
  obtain ⟨r, g, rfl⟩ : ∃ (r : Fin 160000) (g : Fin 64), j = ix2 r g := ⟨j 0, j 1, eq_ix2 j⟩
  obtain ⟨t, n, hrow⟩ := row_split r
  show max (shapeCast Cert.KernelIdeal.S160000x64 Y shapeCasts_S16x10000x64_S160000x64 (ix2 r g)
      + shapeCast Cert.KernelIdeal.S1x64 b shapeCasts_S64_S1x64 (ix2 (0 : Fin 1) g)) 0 = _
  rw [shapeCast_rows_apply Y _ t n g r hrow, shapeCast_a_1a_apply b _ 0 g,
    shapeCast_rows_apply _ _ t n g r hrow, maximumf_apply, addf_apply, bias64_apply, zero64_apply]

/-- The second bias region on the rows of `Z` is the rows of the reference's sum with the spread bias. -/
theorem biasAdd_rows (Z : Cert.ReferenceIdeal.S16x10000x32.Idx → EReal) (b : Cert.ReferenceIdeal.S32.Idx → EReal) :
    Cert.Spec.biasAdd (R := 160000) (C := 32)
        (shapeCast Cert.KernelIdeal.S160000x32 Z shapeCasts_S16x10000x32_S160000x32)
        (shapeCast Cert.KernelIdeal.S1x32 b shapeCasts_S32_S1x32)
      = shapeCast Cert.KernelIdeal.S160000x32
          (addf (F := Ideal) (φ := .f32) Z (Cert.ReferenceIdeal.Term.bias32 b))
          shapeCasts_S16x10000x32_S160000x32 := by
  funext j
  obtain ⟨r, g, rfl⟩ : ∃ (r : Fin 160000) (g : Fin 32), j = ix2 r g := ⟨j 0, j 1, eq_ix2 j⟩
  obtain ⟨t, n, hrow⟩ := row_split r
  show shapeCast Cert.KernelIdeal.S160000x32 Z shapeCasts_S16x10000x32_S160000x32 (ix2 r g)
      + shapeCast Cert.KernelIdeal.S1x32 b shapeCasts_S32_S1x32 (ix2 (0 : Fin 1) g) = _
  rw [shapeCast_rows_apply Z _ t n g r hrow, shapeCast_a_1a_apply b _ 0 g,
    shapeCast_rows_apply _ _ t n g r hrow, addf_apply, bias32_apply]

end Cert.LawsBias

end
-- ==== Proof.LawsLayer.lean ====
/-
  The kernel's aggregation against the reference's.

  Both gather every edge's source row, scale it by the edge's weight, and add it into the destination node's row. The
  kernel adds over a node-major array `[10000, 16, ·]` by the destination numbers as they are, transposing the messages
  going in and the sums coming out; the reference adds along the node axis of `[16, 10000, ·]` by the destination numbers
  with a negative one counted from the end. Read at `(t, n, f)` both are the sum of `message (t, e, f)` over the edges `e`
  whose destination number is `n`: when no destination number is negative, counting from the end changes none of them,
  and a number past the last node adds nowhere on either side.
-/
import proofs.«114761_j88725434400964_1_alg».proof.Proof.KTerm
import proofs.«114761_j88725434400964_1_alg».proof.Proof.RTerm
import proofs.«114761_j88725434400964_1_alg».proof.Proof.LibRows
import proofs.«114761_j88725434400964_1_alg».proof.Proof.LibMid
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LawsLayer

open Idealize.ShloMosaic Idealize.ShloMosaic.ValueIdx
open Cert.KernelIdeal.Facts₀ Cert.KernelIdeal.Facts

/-- A selection whose condition is nowhere set is its second branch. -/
theorem select_of_zero {s : Shape} {α : Type} (c : IVec s 1) (a b : s.Idx → α) (hc : ∀ i, c i = 0#1) :
    select c a b = b := by
  funext i
  rw [select_apply, hc i, select_zero]

/-- When no node number is negative, counting a negative one from the end changes nothing: the wrapped column is the
    column as it is. -/
theorem wrapCol_eq_col (d : IVec Cert.ReferenceIdeal.S170000 32)
    (hd : ∀ e : Cert.ReferenceIdeal.S170000.Idx, 0 ≤ (d e).toInt) :
    Cert.ReferenceIdeal.Term.wrapCol d = Cert.KernelIdeal.Term.col d := by
  unfold Cert.ReferenceIdeal.Term.wrapCol Cert.KernelIdeal.Term.col
  have hc : ∀ e : Cert.ReferenceIdeal.S170000.Idx,
      cmpi .slt d (broadcastInDim Cert.ReferenceIdeal.S170000 ![] Cert.ReferenceIdeal.Facts₀.bcast_S_S170000
        (constantI Cert.ReferenceIdeal.S_ 32 0#32)) e = 0#1 := by
    intro e
    refine eq_zero_of_ne_one (fun h => ?_)
    have h' : (d e).toInt < (0#32 : BitVec 32).toInt := IntOp.cmpi_slt.1 h
    have h0 := hd e
    rw [BitVec.toInt_zero] at h'
    omega
  rw [select_of_zero _ _ _ hc]

/-- A scatter-add at the extended reals is the exact sum of the updates that land on each element. -/
theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The kernel's addition over the node-major array, read at `(t, n, f)`: the operand's element `(n, t, f)` plus the sum
    of `M (t, e, f)` over the edges `e` whose destination number is `n`. -/
theorem kernel_add64 (z : Cert.KernelIdeal.S10000x16x64.Idx → EReal) (dc : IVec Cert.KernelIdeal.S170000x1 32)
    (M : Cert.KernelIdeal.S16x170000x64.Idx → EReal) (t : Fin 16) (n : Fin 10000) (f : Fin 64) :
    transpose Cert.KernelIdeal.S16x10000x64 [1, 0, 2]
        (Host.scatterAdd (F := Ideal) (φ := .f32) Cert.KernelIdeal.scatter_S10000x16x64_S170000x1_S170000x16x64_12_0_0_1 z dc
          (transpose Cert.KernelIdeal.S170000x16x64 [1, 0, 2] M transposes_S16x170000x64_S170000x16x64_1_0_2))
        transposes_S10000x16x64_S16x10000x64_1_0_2 (ix3 t n f)
      = z (ix3 n t f)
        + ∑ e ∈ Finset.univ.filter (fun e : Fin 170000 => (dc (ix2 e (0 : Fin 1))).toInt = (n.val : Int)),
            M (ix3 t e f) := by
  rw [transpose_apply [1, 0, 2] _ transposes_S10000x16x64_S16x10000x64_1_0_2 (ix3 t n f) (ix3 n t f)
    (fun b => match b with | ⟨0, _⟩ => rfl | ⟨1, _⟩ => rfl | ⟨2, _⟩ => rfl)]
  rw [scatterAdd_ideal, Cert.LibRows.scatterAdd_rows3 _ rfl rfl rfl rfl]
  refine congrArg (fun s => z (ix3 n t f) + s) (Finset.sum_congr rfl (fun e _ => ?_))
  exact transpose_apply [1, 0, 2] M transposes_S16x170000x64_S170000x16x64_1_0_2 (ix3 e t f) (ix3 t e f)
    (fun b => match b with | ⟨0, _⟩ => rfl | ⟨1, _⟩ => rfl | ⟨2, _⟩ => rfl)

/-- The reference's addition along the node axis, read at `(t, n, f)`: the operand's element plus the sum of
    `M (t, e, f)` over the edges `e` whose destination number is `n`. -/
theorem reference_add64 (z : Cert.ReferenceIdeal.S16x10000x64.Idx → EReal) (dc : IVec Cert.ReferenceIdeal.S170000x1 32)
    (M : Cert.ReferenceIdeal.S16x170000x64.Idx → EReal) (t : Fin 16) (n : Fin 10000) (f : Fin 64) :
    Host.scatterAdd (F := Ideal) (φ := .f32) Cert.ReferenceIdeal.scatter_S16x10000x64_S170000x1_S16x170000x64_02_1_1_1 z dc M
        (ix3 t n f)
      = z (ix3 t n f)
        + ∑ e ∈ Finset.univ.filter (fun e : Fin 170000 => (dc (ix2 e (0 : Fin 1))).toInt = (n.val : Int)),
            M (ix3 t e f) := by
  rw [scatterAdd_ideal, Cert.LibMid.scatterAdd_mid3 _ rfl rfl rfl rfl]

/-- With the same column of destination numbers on both sides, the kernel's aggregation over 64 features on the rows
    of `Y` is the rows of the reference's. -/
theorem layer_rows64_col (Y : Cert.ReferenceIdeal.S16x10000x64.Idx → EReal) (sc : IVec Cert.ReferenceIdeal.S170000x1 32)
    (dc : IVec Cert.ReferenceIdeal.S170000x1 32) (nb : Cert.ReferenceIdeal.S16x170000x64.Idx → EReal) :
    Cert.KernelIdeal.Term.layer64 (shapeCast Cert.KernelIdeal.S160000x64 Y shapeCasts_S16x10000x64_S160000x64) sc dc nb
      = shapeCast Cert.KernelIdeal.S160000x64 (Cert.ReferenceIdeal.Term.layer64 Y sc dc nb)
          shapeCasts_S16x10000x64_S160000x64 := by
  unfold Cert.KernelIdeal.Term.layer64 Cert.ReferenceIdeal.Term.layer64
  rw [shapeCast_shapeCast]
  refine congrArg (fun v => shapeCast Cert.KernelIdeal.S160000x64 v shapeCasts_S16x10000x64_S160000x64) ?_
  funext j
  obtain ⟨t, n, f, rfl⟩ : ∃ (t : Fin 16) (n : Fin 10000) (f : Fin 64), j = ix3 t n f := ⟨j 0, j 1, j 2, eq_ix3 j⟩
  rw [kernel_add64, reference_add64]
  rfl

/-- The kernel's aggregation over 64 features on the rows of `Y` is the rows of the reference's, when no destination
    number is negative. -/
theorem layer_rows64 (Y : Cert.ReferenceIdeal.S16x10000x64.Idx → EReal) (sc : IVec Cert.ReferenceIdeal.S170000x1 32)
    (d : IVec Cert.ReferenceIdeal.S170000 32) (nb : Cert.ReferenceIdeal.S16x170000x64.Idx → EReal)
    (hd : ∀ e : Cert.ReferenceIdeal.S170000.Idx, 0 ≤ (d e).toInt) :
    Cert.KernelIdeal.Term.layer64 (shapeCast Cert.KernelIdeal.S160000x64 Y shapeCasts_S16x10000x64_S160000x64) sc
        (Cert.KernelIdeal.Term.col d) nb
      = shapeCast Cert.KernelIdeal.S160000x64
          (Cert.ReferenceIdeal.Term.layer64 Y sc (Cert.ReferenceIdeal.Term.wrapCol d) nb)
          shapeCasts_S16x10000x64_S160000x64 := by
  rw [wrapCol_eq_col d hd]
  exact layer_rows64_col Y sc (Cert.KernelIdeal.Term.col d) nb

/-- The kernel's addition over the node-major array, read at `(t, n, f)`: the operand's element `(n, t, f)` plus the sum
    of `M (t, e, f)` over the edges `e` whose destination number is `n`. -/
theorem kernel_add32 (z : Cert.KernelIdeal.S10000x16x32.Idx → EReal) (dc : IVec Cert.KernelIdeal.S170000x1 32)
    (M : Cert.KernelIdeal.S16x170000x32.Idx → EReal) (t : Fin 16) (n : Fin 10000) (f : Fin 32) :
    transpose Cert.KernelIdeal.S16x10000x32 [1, 0, 2]
        (Host.scatterAdd (F := Ideal) (φ := .f32) Cert.KernelIdeal.scatter_S10000x16x32_S170000x1_S170000x16x32_12_0_0_1 z dc
          (transpose Cert.KernelIdeal.S170000x16x32 [1, 0, 2] M transposes_S16x170000x32_S170000x16x32_1_0_2))
        transposes_S10000x16x32_S16x10000x32_1_0_2 (ix3 t n f)
      = z (ix3 n t f)
        + ∑ e ∈ Finset.univ.filter (fun e : Fin 170000 => (dc (ix2 e (0 : Fin 1))).toInt = (n.val : Int)),
            M (ix3 t e f) := by
  rw [transpose_apply [1, 0, 2] _ transposes_S10000x16x32_S16x10000x32_1_0_2 (ix3 t n f) (ix3 n t f)
    (fun b => match b with | ⟨0, _⟩ => rfl | ⟨1, _⟩ => rfl | ⟨2, _⟩ => rfl)]
  rw [scatterAdd_ideal, Cert.LibRows.scatterAdd_rows3 _ rfl rfl rfl rfl]
  refine congrArg (fun s => z (ix3 n t f) + s) (Finset.sum_congr rfl (fun e _ => ?_))
  exact transpose_apply [1, 0, 2] M transposes_S16x170000x32_S170000x16x32_1_0_2 (ix3 e t f) (ix3 t e f)
    (fun b => match b with | ⟨0, _⟩ => rfl | ⟨1, _⟩ => rfl | ⟨2, _⟩ => rfl)

/-- The reference's addition along the node axis, read at `(t, n, f)`: the operand's element plus the sum of
    `M (t, e, f)` over the edges `e` whose destination number is `n`. -/
theorem reference_add32 (z : Cert.ReferenceIdeal.S16x10000x32.Idx → EReal) (dc : IVec Cert.ReferenceIdeal.S170000x1 32)
    (M : Cert.ReferenceIdeal.S16x170000x32.Idx → EReal) (t : Fin 16) (n : Fin 10000) (f : Fin 32) :
    Host.scatterAdd (F := Ideal) (φ := .f32) Cert.ReferenceIdeal.scatter_S16x10000x32_S170000x1_S16x170000x32_02_1_1_1 z dc M
        (ix3 t n f)
      = z (ix3 t n f)
        + ∑ e ∈ Finset.univ.filter (fun e : Fin 170000 => (dc (ix2 e (0 : Fin 1))).toInt = (n.val : Int)),
            M (ix3 t e f) := by
  rw [scatterAdd_ideal, Cert.LibMid.scatterAdd_mid3 _ rfl rfl rfl rfl]

/-- With the same column of destination numbers on both sides, the kernel's aggregation over 32 features on the rows
    of `Y` is the rows of the reference's. -/
theorem layer_rows32_col (Y : Cert.ReferenceIdeal.S16x10000x32.Idx → EReal) (sc : IVec Cert.ReferenceIdeal.S170000x1 32)
    (dc : IVec Cert.ReferenceIdeal.S170000x1 32) (nb : Cert.ReferenceIdeal.S16x170000x32.Idx → EReal) :
    Cert.KernelIdeal.Term.layer32 (shapeCast Cert.KernelIdeal.S160000x32 Y shapeCasts_S16x10000x32_S160000x32) sc dc nb
      = shapeCast Cert.KernelIdeal.S160000x32 (Cert.ReferenceIdeal.Term.layer32 Y sc dc nb)
          shapeCasts_S16x10000x32_S160000x32 := by
  unfold Cert.KernelIdeal.Term.layer32 Cert.ReferenceIdeal.Term.layer32
  rw [shapeCast_shapeCast]
  refine congrArg (fun v => shapeCast Cert.KernelIdeal.S160000x32 v shapeCasts_S16x10000x32_S160000x32) ?_
  funext j
  obtain ⟨t, n, f, rfl⟩ : ∃ (t : Fin 16) (n : Fin 10000) (f : Fin 32), j = ix3 t n f := ⟨j 0, j 1, j 2, eq_ix3 j⟩
  rw [kernel_add32, reference_add32]
  rfl

/-- The kernel's aggregation over 32 features on the rows of `Y` is the rows of the reference's, when no destination
    number is negative. -/
theorem layer_rows32 (Y : Cert.ReferenceIdeal.S16x10000x32.Idx → EReal) (sc : IVec Cert.ReferenceIdeal.S170000x1 32)
    (d : IVec Cert.ReferenceIdeal.S170000 32) (nb : Cert.ReferenceIdeal.S16x170000x32.Idx → EReal)
    (hd : ∀ e : Cert.ReferenceIdeal.S170000.Idx, 0 ≤ (d e).toInt) :
    Cert.KernelIdeal.Term.layer32 (shapeCast Cert.KernelIdeal.S160000x32 Y shapeCasts_S16x10000x32_S160000x32) sc
        (Cert.KernelIdeal.Term.col d) nb
      = shapeCast Cert.KernelIdeal.S160000x32
          (Cert.ReferenceIdeal.Term.layer32 Y sc (Cert.ReferenceIdeal.Term.wrapCol d) nb)
          shapeCasts_S16x10000x32_S160000x32 := by
  rw [wrapCol_eq_col d hd]
  exact layer_rows32_col Y sc (Cert.KernelIdeal.Term.col d) nb

end Cert.LawsLayer

end
-- ==== Proof.Bridge.lean ====
/-
  The kernel's term is the reference's term.

  Reading the kernel's program from the inside out, every stage is a stage of the reference applied to the same array
  laid out as rows: the first projection is the rows of the reference's contraction; the aggregation of those rows is the
  rows of the reference's aggregation (no destination number being negative); the bias region on them is the rows of the
  reference's biased, clipped sum; reshaping rows to `[16, 10000, 64]` and back changes nothing; and the same three steps
  again over 32 features, without the clip. The last reshape undoes the rows, and what is left is the reference's term,
  the two programs' spellings of the wrapped source numbers and of the spread edge weights being one function.
-/
import proofs.«114761_j88725434400964_1_alg».proof.Proof.KTerm
import proofs.«114761_j88725434400964_1_alg».proof.Proof.RTerm
import proofs.«114761_j88725434400964_1_alg».proof.Proof.LawsMM
import proofs.«114761_j88725434400964_1_alg».proof.Proof.LawsBias
import proofs.«114761_j88725434400964_1_alg».proof.Proof.LawsLayer
import Idealize.ShloMosaic.Lib.Pipeline.Value

set_option maxRecDepth 65536

noncomputable section

namespace Cert.Bridge

open Idealize.ShloMosaic

/-- THE TWO TERMS AGREE when no destination node number is negative. -/
theorem out_eq (x0 : Cert.ReferenceIdeal.S16x10000x32.Idx → EReal) (x4 : Cert.ReferenceIdeal.S32x64.Idx → EReal)
    (x5 : Cert.ReferenceIdeal.S64.Idx → EReal) (x6 : Cert.ReferenceIdeal.S64x32.Idx → EReal)
    (x7 : Cert.ReferenceIdeal.S32.Idx → EReal) (s d : IVec Cert.ReferenceIdeal.S170000 32)
    (nrm : Cert.ReferenceIdeal.S170000.Idx → EReal)
    (hd : ∀ e : Cert.ReferenceIdeal.S170000.Idx, 0 ≤ (d e).toInt) :
    Cert.KernelIdeal.Term.out x0 x4 x5 x6 x7 s d nrm = Cert.ReferenceIdeal.Term.out x0 x4 x5 x6 x7 s d nrm := by
  unfold Cert.KernelIdeal.Term.out Cert.ReferenceIdeal.Term.out
  rw [Cert.LawsMM.mm_rows64, Cert.LawsLayer.layer_rows64 _ _ _ _ hd, Cert.LawsBias.biasRelu_rows, shapeCast_shapeCast,
    Cert.LawsMM.mm_rows32, Cert.LawsLayer.layer_rows32 _ _ _ _ hd, Cert.LawsBias.biasAdd_rows, shapeCast_shapeCast]
  rfl

end Cert.Bridge

end
-- ==== Proof.PreDecode.lean ====
/-
  What the precondition says of the destination node numbers.

  The precondition's last conjunct is `jnp.all(edge_index[1] >= 0)`: every entry of row 1 of the edge table, read signed, is at
  least zero. The program's destination numbers are that row followed by the node numbers `0 … 9999` of the self loops, so
  every one of the 170000 destination numbers is non-negative.
-/
import proofs.«114761_j88725434400964_1_alg».proof.Defs
import proofs.«114761_j88725434400964_1_alg».proof.Proof.Gen.KernelIdeal
import proofs.«114761_j88725434400964_1_alg».proof.Proof.Gen.ReferenceIdeal
import proofs.«114761_j88725434400964_1_alg».proof.Proof.Gen.Pre_finite_inputs
import proofs.«114761_j88725434400964_1_alg».proof.Proof.Gen.ReferenceIdeal.Read
import Idealize.ShloMosaic.Lib.ReduceAll
import Idealize.ShloMosaic.Lib.Affine
import Idealize.ShloMosaic.Lib.StableHlo.Predicate
import Idealize.ShloMosaic.Lib.Pipeline.Value
import Idealize.ShloMosaic.Lib.ValueIdx

noncomputable section

namespace Cert.PreDecode

open Idealize.ShloMosaic Idealize.ShloMosaic.TcCoe Idealize.ShloMosaic.ValueIdx Idealize.SL.Sem

/-- A shape of rank zero has one index. -/
local instance subsingleton_scalar_idx : Subsingleton (⟨0, ![]⟩ : Shape).Idx := ⟨fun a b => funext fun d => d.elim0⟩

/-- When the precondition's function is all ones, every entry of row 1 of its second argument, read signed, is at least zero. -/
theorem row_nonneg_of_fn
    (a0 : FVec Ideal Cert.Pre_finite_inputs.S16x10000x32 .f32) (a1 : IVec Cert.Pre_finite_inputs.S2x160000 32)
    (a2 : FVec Ideal Cert.Pre_finite_inputs.S160000 .f32) (a3 : IVec Cert.Pre_finite_inputs.S16x10000x32 1)
    (a4 : FVec Ideal Cert.Pre_finite_inputs.S32x64 .f32) (a5 : FVec Ideal Cert.Pre_finite_inputs.S64 .f32)
    (a6 : FVec Ideal Cert.Pre_finite_inputs.S64x32 .f32) (a7 : FVec Ideal Cert.Pre_finite_inputs.S32 .f32)
    (h : Cert.Pre_finite_inputs.fn (F := Ideal) a0 a1 a2 a3 a4 a5 a6 a7 = (fun _ => 1#1))
    (i : Cert.Pre_finite_inputs.S160000.Idx) :
    0 ≤ (shapeCast Cert.Pre_finite_inputs.S160000
      (extractStridedSlice Cert.Pre_finite_inputs.S1x160000 ![1, 0] a1
        Cert.Pre_finite_inputs.Facts.slices_S2x160000_S1x160000_1_0)
      Cert.Pre_finite_inputs.Facts.shapeCasts_S1x160000_S160000 i).toInt := by
  have h0 := congrFun h ix0
  unfold Cert.Pre_finite_inputs.fn Cert.Pre_finite_inputs.fn_part1 Cert.Pre_finite_inputs.fn_part2 at h0
  have h1 := (IntOp.andi_eq_one.1 h0).2
  have h2 := Host.reduce_andi_all _ _ _ _ _ h1 i
  have h3 := IntOp.cmpi_sge.1 h2
  exact h3

/-- Under the precondition every entry of row 1 of the edge table, read signed, is at least zero. -/
theorem row_nonneg (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.ReferenceIdeal.S160000.Idx) :
    0 ≤ ((Cert.ReferenceIdeal.Read.val_main_v5 (F := Ideal)
      (m ((c.tc : Thread Cert.KernelIdeal.nD Cert.KernelIdeal.τ).loc Cert.KernelIdeal.main_arg1))) i).toInt :=
  row_nonneg_of_fn _ _ _ _ _ _ _ _ (hpre c) i

/-- Under the precondition no destination node number is negative. -/
theorem dst_nonneg (m : (ℓ : Loc Cert.KernelIdeal.nD Cert.KernelIdeal.τ Cert.KernelIdeal.sig) → Buf (Elt Ideal) ℓ)
    (hpre : Cert.Pre_KernelIdeal m) (c : Dev Cert.KernelIdeal.nD) (e : Cert.ReferenceIdeal.S170000.Idx) :
    0 ≤ ((Cert.ReferenceIdeal.Read.val_main_v6 (F := Ideal)
      (m ((c.tc : Thread Cert.KernelIdeal.nD Cert.KernelIdeal.τ).loc Cert.KernelIdeal.main_arg1))) e).toInt := by
  have he : (e 0).val < 170000 := (e 0).isLt
  unfold Cert.ReferenceIdeal.Read.val_main_v6
  by_cases hlt : (e 0).val < 160000
  · -- the entry is one of row 1 of the edge table
    rw [concatenate_pair_apply_left (t := Cert.ReferenceIdeal.S170000) (s₁ := Cert.ReferenceIdeal.S160000)
      (s₂ := Cert.ReferenceIdeal.S10000) (0 : Fin 1) _ _ _ e rfl (ix1 (n := 160000) ⟨(e 0).val, hlt⟩)
      (fun b => by
        have hb : b = (0 : Fin 1) := Subsingleton.elim _ _
        subst hb; rfl)]
    exact row_nonneg m hpre c _
  · -- the entry is the node number of a self loop, below 10000
    have hk : (e 0).val - 160000 < 10000 := by omega
    rw [concatenate_pair_apply_right (t := Cert.ReferenceIdeal.S170000) (s₁ := Cert.ReferenceIdeal.S160000)
      (s₂ := Cert.ReferenceIdeal.S10000) (0 : Fin 1) _ _ _ e rfl rfl (ix1 (n := 10000) ⟨(e 0).val - 160000, hk⟩)
      (fun b hb => absurd (Subsingleton.elim _ _) hb)
      (by show (e 0).val - 160000 + 160000 = (e 0).val; omega)]
    rw [Cert.ReferenceIdeal.Read.val_main_v0_apply,
      StableHlo.Predicate.toInt_ofNat_small _ (by show (e 0).val - 160000 < 2 ^ 31; omega)]
    exact Int.natCast_nonneg _

end Cert.PreDecode

end
-- ==== Proof.lean ====
/-
  The certificate of the graph-convolution kernel against its reference, over the extended reals.

  The kernel computes two graph-convolution layers. Each layer projects every node's features by a weight matrix (a
  kernel region: rows of activations against the weight matrix), then for every edge, self loops included, adds the source
  node's projected row scaled by the edge's normalisation weight into the destination node's row (host operations), then
  adds a bias (a second kernel region, which after the first layer also clips at zero). The reference does the same with
  one contraction, one addition along the node axis and one broadcast sum per layer.

  The two differ in one place: the reference counts a negative destination number from the end before adding, the kernel
  adds by the number as it is, and a number that is not a node number adds nowhere. Under the precondition no destination
  number is negative, so the two agree; everything else is the same sum in a different layout (rows `10000 t + n` against
  `(t, n)`, node-major against time-major).

  The frames of the two kernel programs are the generated ones; the reference's frame is its generated run. The kernel's
  value is read off the run of its four regions and five host stretches; the reference's is its generated run's term.
-/
import proofs.«114761_j88725434400964_1_alg».proof.Defs
import proofs.«114761_j88725434400964_1_alg».proof.Proof.Gen.Kernel
import proofs.«114761_j88725434400964_1_alg».proof.Proof.Gen.Kernel.Frame
import proofs.«114761_j88725434400964_1_alg».proof.Proof.Gen.KernelIdeal
import proofs.«114761_j88725434400964_1_alg».proof.Proof.Gen.KernelIdeal.Frame
import proofs.«114761_j88725434400964_1_alg».proof.Proof.Gen.ReferenceIdeal
import proofs.«114761_j88725434400964_1_alg».proof.Proof.Gen.ReferenceIdeal.Run
import proofs.«114761_j88725434400964_1_alg».proof.Proof.Gen.ReferenceIdeal.Read
import proofs.«114761_j88725434400964_1_alg».proof.Proof.Gen.Pre_finite_inputs
import proofs.«114761_j88725434400964_1_alg».proof.Proof.KRun
import proofs.«114761_j88725434400964_1_alg».proof.Proof.KThread
import proofs.«114761_j88725434400964_1_alg».proof.Proof.RTerm
import proofs.«114761_j88725434400964_1_alg».proof.Proof.Bridge
import proofs.«114761_j88725434400964_1_alg».proof.Proof.PreDecode
import Idealize.ShloMosaic.Adequacy
import Idealize.ShloMosaic.Init

set_option maxRecDepth 65536

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs run, and end with the reference's term of the arguments: the kernel's run read back through its
    regions is that term when no destination number is negative, which the precondition says. -/
theorem algebraic : Cert.algebraic_KernelIdeal_ReferenceIdeal := by
  intro m ρ m' ρ' hpre hagree
  refine ⟨fun c => Cert.KernelIdeal.Term.out (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (Cert.ReferenceIdeal.Read.val_main_v3 (F := Ideal) (m ((c.tc : Thread Cert.KernelIdeal.nD Cert.KernelIdeal.τ).loc Cert.KernelIdeal.main_arg1))) (Cert.ReferenceIdeal.Read.val_main_v6 (F := Ideal) (m ((c.tc : Thread Cert.KernelIdeal.nD Cert.KernelIdeal.τ).loc Cert.KernelIdeal.main_arg1)))
      (Cert.ReferenceIdeal.Read.val_main_v34 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))),
    fun _ => constantI Cert.KernelIdeal.S_ 32 0#32, ?_, ?_⟩
  · refine (θ_run Cert.KernelIdeal.defs _ _).mono (fun r h c => ?_) (Cert.KernelIdeal.Gen.run_W13 (F := Ideal) m ρ)
    exact ⟨(h c _ (Cert.KernelIdeal.Gen.mem_uc Cert.KernelIdeal.main_v78 (by decide))).trans (Cert.KernelIdeal.Thread.kernel_value m ρ c),
      (h c _ (Cert.KernelIdeal.Gen.mem_uc Cert.KernelIdeal.main_c_14 (by decide))).trans (Cert.KernelIdeal.Thread.kernel_c14 m ρ c),
      (h c _ (Cert.KernelIdeal.Gen.mem_uc Cert.KernelIdeal.main_arg0 (by decide))).trans (Cert.KernelIdeal.Gen.W13_main_arg0 m ρ c),
      (h c _ (Cert.KernelIdeal.Gen.mem_uc Cert.KernelIdeal.main_arg1 (by decide))).trans (Cert.KernelIdeal.Gen.W13_main_arg1 m ρ c),
      (h c _ (Cert.KernelIdeal.Gen.mem_uc Cert.KernelIdeal.main_arg2 (by decide))).trans (Cert.KernelIdeal.Gen.W13_main_arg2 m ρ c),
      (h c _ (Cert.KernelIdeal.Gen.mem_uc Cert.KernelIdeal.main_arg3 (by decide))).trans (Cert.KernelIdeal.Gen.W13_main_arg3 m ρ c),
      (h c _ (Cert.KernelIdeal.Gen.mem_uc Cert.KernelIdeal.main_arg4 (by decide))).trans (Cert.KernelIdeal.Gen.W13_main_arg4 m ρ c),
      (h c _ (Cert.KernelIdeal.Gen.mem_uc Cert.KernelIdeal.main_arg5 (by decide))).trans (Cert.KernelIdeal.Gen.W13_main_arg5 m ρ c),
      (h c _ (Cert.KernelIdeal.Gen.mem_uc Cert.KernelIdeal.main_arg6 (by decide))).trans (Cert.KernelIdeal.Gen.W13_main_arg6 m ρ c),
      (h c _ (Cert.KernelIdeal.Gen.mem_uc Cert.KernelIdeal.main_arg7 (by decide))).trans (Cert.KernelIdeal.Gen.W13_main_arg7 m ρ c)⟩
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v79_eq, Cert.ReferenceIdeal.Term.val_eq_out, a0, a1, a2, a4, a5, a6, a7]
    exact (Cert.Bridge.out_eq _ _ _ _ _ _ _ _ (Cert.PreDecode.dst_nonneg m hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
